-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S3072x1024 .f32) (main_arg2 : FVec F S3072 .f32) (main_arg3 : FVec F S1024x1024 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S32768x1024 : Shape := ⟨2, ![32768, 1024]⟩
abbrev S1024x3072 : Shape := ⟨2, ![1024, 3072]⟩
abbrev S1x3072 : Shape := ⟨2, ![1, 3072]⟩
abbrev S1x1024 : Shape := ⟨2, ![1, 1024]⟩
abbrev S256x1024 : Shape := ⟨2, ![256, 1024]⟩
abbrev S256x3072 : Shape := ⟨2, ![256, 3072]⟩
abbrev S256x16x64 : Shape := ⟨3, ![256, 16, 64]⟩
abbrev S256x64 : Shape := ⟨2, ![256, 64]⟩
abbrev S256x1x64 : Shape := ⟨3, ![256, 1, 64]⟩
abbrev S256x64x64 : Shape := ⟨3, ![256, 64, 64]⟩
abbrev S8x4096x16x64 : Shape := ⟨4, ![8, 4096, 16, 64]⟩
abbrev S8x16x4096x64 : Shape := ⟨4, ![8, 16, 4096, 64]⟩

abbrev nBuf : Space → Nat
  | .hbm => 19
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S32768x1024, .f32⟩
  | .hbm, ⟨13, _⟩ => ⟨S8x4096x16x64, .f32⟩
  | .hbm, ⟨14, _⟩ => ⟨S8x16x4096x64, .f32⟩
  | .hbm, ⟨15, _⟩ => ⟨S8x4096x1024, .f32⟩
  | .hbm, ⟨16, _⟩ => ⟨S32768x1024, .f32⟩
  | .hbm, ⟨17, _⟩ => ⟨S32768x1024, .f32⟩
  | .hbm, ⟨18, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1x3072, .f32⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x4096x1024_S32768x1024 : S8x4096x1024.ShapeCasts S32768x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S256x1024_S256x16x64 : S256x1024.ShapeCasts S256x16x64
  reduces_S256x16x64_S256x64 : S256x16x64.Reduces [1] S256x64
  shapeCasts_S256x64_S256x1x64 : S256x64.ShapeCasts S256x1x64
  broadcasts_S256x1x64_S256x16x64 : S256x1x64.Broadcasts S256x16x64
  shapeCasts_S256x16x64_S256x1024 : S256x16x64.ShapeCasts S256x1024
  shapeCasts_S32768x1024_S8x4096x16x64 : S32768x1024.ShapeCasts S8x4096x16x64
  transposes_S8x4096x16x64_S8x16x4096x64_0_2_1_3 : S8x4096x16x64.Transposes [0, 2, 1, 3] S8x16x4096x64
  shapeCasts_S8x16x4096x64_S8x4096x1024 : S8x16x4096x64.ShapeCasts S8x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S256x1024_S1024x3072_S256x3072_1_0_0_1_n_n_wf : DotDims.WF S256x1024 S1024x3072 S256x3072 [1] [0] [0] [1] [] []
  dot_S256x16x64_S256x16x64_S256x64x64_1_1_2_2_0_0_wf : DotDims.WF S256x16x64 S256x16x64 S256x64x64 [1] [1] [2] [2] [0] [0]
  dot_S256x16x64_S256x64x64_S256x16x64_2_1_1_2_0_0_wf : DotDims.WF S256x16x64 S256x64x64 S256x16x64 [2] [1] [1] [2] [0] [0]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S32768x1024.size a
  hwx0_3 : ∀ i : grid0.Coords, EltTy.bits .f32 = 32 ∨ (Rect.block (s := S32768x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S32768x1024.size a
  hwx1_3 : ∀ i : grid1.Coords, EltTy.bits .f32 = 32 ∨ (Rect.block (s := S32768x1024) S1024x1024.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x16x64_S256x16x64_S256x64x64_1_1_2_2_0_0 : DotDims S256x16x64 S256x16x64 S256x64x64 where
  lhsContracting := [1]
  rhsContracting := [1]
  lhsNonContracting := [2]
  rhsNonContracting := [2]
  lhsBatch := [0]
  rhsBatch := [0]
  wf := dot_S256x16x64_S256x16x64_S256x64x64_1_1_2_2_0_0_wf
def dot_S256x16x64_S256x64x64_S256x16x64_2_1_1_2_0_0 : DotDims S256x16x64 S256x64x64 S256x16x64 where
  lhsContracting := [2]
  rhsContracting := [1]
  lhsNonContracting := [1]
  rhsNonContracting := [2]
  lhsBatch := [0]
  rhsBatch := [0]
  wf := dot_S256x16x64_S256x64x64_S256x16x64_2_1_1_2_0_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8x4096x3072 : Shape := ⟨3, ![8, 4096, 3072]⟩
abbrev S1x1x3072 : Shape := ⟨3, ![1, 1, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S_ : Shape := ⟨0, ![]⟩
abbrev S8x4096x64 : Shape := ⟨3, ![8, 4096, 64]⟩
abbrev S8x4096x1x64 : Shape := ⟨4, ![8, 4096, 1, 64]⟩
abbrev S8x4096x64x64 : Shape := ⟨4, ![8, 4096, 64, 64]⟩
abbrev S8x16x4096x64 : Shape := ⟨4, ![8, 16, 4096, 64]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8x4096x3072, .f32⟩
  | .hbm, ⟨6, _⟩ => ⟨S1x1x3072, .f32⟩
  | .hbm, ⟨7, _⟩ => ⟨S8x4096x3072, .f32⟩
  | .hbm, ⟨8, _⟩ => ⟨S8x4096x3072, .f32⟩
  | .hbm, ⟨9, _⟩ => ⟨S8x4096x3x16x64, .f32⟩
  | .hbm, ⟨10, _⟩ => ⟨S8x4096x1x16x64, .f32⟩
  | .hbm, ⟨11, _⟩ => ⟨S8x4096x16x64, .f32⟩
  | .hbm, ⟨12, _⟩ => ⟨S8x4096x1x16x64, .f32⟩
  | .hbm, ⟨13, _⟩ => ⟨S8x4096x16x64, .f32⟩
  | .hbm, ⟨14, _⟩ => ⟨S8x4096x1x16x64, .f32⟩
  | .hbm, ⟨15, _⟩ => ⟨S8x4096x16x64, .f32⟩
  | .hbm, ⟨16, _⟩ => ⟨S_, .f32⟩
  | .hbm, ⟨17, _⟩ => ⟨S8x4096x16x64, .f32⟩
  | .hbm, ⟨18, _⟩ => ⟨S8x4096x16x64, .f32⟩
  | .hbm, ⟨19, _⟩ => ⟨S_, .f32⟩
  | .hbm, ⟨20, _⟩ => ⟨S8x4096x64, .f32⟩
  | .hbm, ⟨21, _⟩ => ⟨S_, .f32⟩
  | .hbm, ⟨22, _⟩ => ⟨S8x4096x64, .f32⟩
  | .hbm, ⟨23, _⟩ => ⟨S8x4096x64, .f32⟩
  | .hbm, ⟨24, _⟩ => ⟨S8x4096x1x64, .f32⟩
  | .hbm, ⟨25, _⟩ => ⟨S8x4096x16x64, .f32⟩
  | .hbm, ⟨26, _⟩ => ⟨S8x4096x16x64, .f32⟩
  | .hbm, ⟨27, _⟩ => ⟨S8x4096x16x64, .f32⟩
  | .hbm, ⟨28, _⟩ => ⟨S_, .f32⟩
  | .hbm, ⟨29, _⟩ => ⟨S8x4096x64, .f32⟩
  | .hbm, ⟨30, _⟩ => ⟨S8x4096x1x64, .f32⟩
  | .hbm, ⟨31, _⟩ => ⟨S8x4096x16x64, .f32⟩
  | .hbm, ⟨32, _⟩ => ⟨S8x4096x16x64, .f32⟩
  | .hbm, ⟨33, _⟩ => ⟨S8x4096x64x64, .f32⟩
  | .hbm, ⟨34, _⟩ => ⟨S8x4096x16x64, .f32⟩
  | .hbm, ⟨35, _⟩ => ⟨S8x16x4096x64, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x4096x3072_0_1_2 : S1x1x3072.BroadcastsInDim S8x4096x3072 (![0, 1, 2] : Fin 3 → Fin S8x4096x3072.rank)
  shapeCasts_S8x4096x3072_S8x4096x3x16x64 : S8x4096x3072.ShapeCasts S8x4096x3x16x64
  slices_S8x4096x3x16x64_S8x4096x1x16x64_0_0_0_0_0 : S8x4096x3x16x64.Slices ![0, 0, 0, 0, 0] S8x4096x1x16x64
  shapeCasts_S8x4096x1x16x64_S8x4096x16x64 : S8x4096x1x16x64.ShapeCasts S8x4096x16x64
  slices_S8x4096x3x16x64_S8x4096x1x16x64_0_0_1_0_0 : S8x4096x3x16x64.Slices ![0, 0, 1, 0, 0] S8x4096x1x16x64
  slices_S8x4096x3x16x64_S8x4096x1x16x64_0_0_2_0_0 : S8x4096x3x16x64.Slices ![0, 0, 2, 0, 0] S8x4096x1x16x64
  bcast_S_S8x4096x16x64 : S_.BroadcastsInDim S8x4096x16x64 (![] : Fin 0 → Fin S8x4096x16x64.rank)
  reducesTo_S8x4096x16x64_S8x4096x64_d2 : S8x4096x16x64.ReducesTo [2] S8x4096x64
  h_S_ : 0 < S_.numel
  bcast_S_S8x4096x64 : S_.BroadcastsInDim S8x4096x64 (![] : Fin 0 → Fin S8x4096x64.rank)
  bcast_S8x4096x64_S8x4096x1x64_0_1_3 : S8x4096x64.BroadcastsInDim S8x4096x1x64 (![0, 1, 3] : Fin 3 → Fin S8x4096x1x64.rank)
  bcast_S8x4096x1x64_S8x4096x16x64_0_1_2_3 : S8x4096x1x64.BroadcastsInDim S8x4096x16x64 (![0, 1, 2, 3] : Fin 4 → Fin S8x4096x16x64.rank)
  transposes_S8x4096x16x64_S8x16x4096x64_0_2_1_3 : S8x4096x16x64.Transposes [0, 2, 1, 3] S8x16x4096x64
  shapeCasts_S8x16x4096x64_S8x4096x1024 : S8x16x4096x64.ShapeCasts S8x4096x1024
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S3072x1024_S8x4096x3072_2_1_01_0_n_n_wf : DotDims.WF S8x4096x1024 S3072x1024 S8x4096x3072 [2] [1] [0, 1] [0] [] []
  dot_S8x4096x16x64_S8x4096x16x64_S8x4096x64x64_2_2_3_3_01_01_wf : DotDims.WF S8x4096x16x64 S8x4096x16x64 S8x4096x64x64 [2] [2] [3] [3] [0, 1] [0, 1]
  dot_S8x4096x16x64_S8x4096x64x64_S8x4096x16x64_3_2_2_3_01_01_wf : DotDims.WF S8x4096x16x64 S8x4096x64x64 S8x4096x16x64 [3] [2] [2] [3] [0, 1] [0, 1]
  dot_S8x4096x1024_S1024x1024_S8x4096x1024_2_1_01_0_n_n_wf : DotDims.WF S8x4096x1024 S1024x1024 S8x4096x1024 [2] [1] [0, 1] [0] [] []

variable [Facts₀]

def dot_S8x4096x1024_S3072x1024_S8x4096x3072_2_1_01_0_n_n : DotDims S8x4096x1024 S3072x1024 S8x4096x3072 where
  lhsContracting := [2]
  rhsContracting := [1]
  lhsNonContracting := [0, 1]
  rhsNonContracting := [0]
  lhsBatch := []
  rhsBatch := []
  wf := dot_S8x4096x1024_S3072x1024_S8x4096x3072_2_1_01_0_n_n_wf
def dot_S8x4096x16x64_S8x4096x16x64_S8x4096x64x64_2_2_3_3_01_01 : DotDims S8x4096x16x64 S8x4096x16x64 S8x4096x64x64 where
  lhsContracting := [2]
  rhsContracting := [2]
  lhsNonContracting := [3]
  rhsNonContracting := [3]
  lhsBatch := [0, 1]
  rhsBatch := [0, 1]
  wf := dot_S8x4096x16x64_S8x4096x16x64_S8x4096x64x64_2_2_3_3_01_01_wf
def dot_S8x4096x16x64_S8x4096x64x64_S8x4096x16x64_3_2_2_3_01_01 : DotDims S8x4096x16x64 S8x4096x64x64 S8x4096x16x64 where
  lhsContracting := [3]
  rhsContracting := [2]
  lhsNonContracting := [2]
  rhsNonContracting := [3]
  lhsBatch := [0, 1]
  rhsBatch := [0, 1]
  wf := dot_S8x4096x16x64_S8x4096x64x64_S8x4096x16x64_3_2_2_3_01_01_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  What both programs compute, written once over the argument arrays at the ideal instance (every float an extended
  real, every operation exact).

  A token is a pair (b, n). Its row of the input is projected to 3072 values, `(∑ c, x c · w o c) + bias o`; these are
  read as three groups of 16 heads × 64 lanes: queries (columns 0 … 1023), keys (1024 … 2047), values (2048 … 3071).
  The keys are normalised by a softmax ACROSS THE 16 HEADS at each lane `d`: the maximum over the heads is subtracted,
  the exponentials are divided by their sum over the heads. The token's context matrix is
  `ctx d e = ∑ h, softmax h d · value h e` and its output is `out h e = ∑ d, (query h d · 1/8) · ctx d e`.
  The [8, 4096, 16, 64] array of these outputs is then laid out with the head axis in front of the position axis and
  read back as [8, 4096, 1024] (a pure re-arrangement, kept here as the library's transpose followed by its reshape), and a
  last projection `(∑ c, s c · w' o c) + bias' o` gives the result.
-/
import Idealize.ShloMosaic.PureOps.Ideal.Laws
import Idealize.ShloMosaic.Lib.ValueIdx
import Idealize.ShloMosaic.Lib.Pipeline.Value

noncomputable section

open scoped BigOperators

namespace Cert.Attn

open Idealize.ShloMosaic Idealize.ShloMosaic.ValueIdx

/-- Column of the query of head `h`, lane `d`, among a token's 3072 projected values. -/
def qCol (h : Fin 16) (d : Fin 64) : Fin 3072 := ⟨h.val * 64 + d.val, by have := h.isLt; have := d.isLt; omega⟩
/-- Column of the key of head `h`, lane `d`. -/
def kCol (h : Fin 16) (d : Fin 64) : Fin 3072 := ⟨1024 + (h.val * 64 + d.val), by have := h.isLt; have := d.isLt; omega⟩
/-- Column of the value of head `h`, lane `e`. -/
def vCol (h : Fin 16) (e : Fin 64) : Fin 3072 := ⟨2048 + (h.val * 64 + e.val), by have := h.isLt; have := e.isLt; omega⟩

/-- A token's projected values: its input row against each output's weights, plus the bias. -/
def proj (x : Fin 1024 → EReal) (w : Fin 3072 → Fin 1024 → EReal) (b : Fin 3072 → EReal) (o : Fin 3072) : EReal :=
  (∑ c : Fin 1024, x c * w o c) + b o

/-- The largest key over the heads at lane `d`, taken from −∞ and once more against −∞ (as both programs do). -/
def keyMax (f : Fin 3072 → EReal) (d : Fin 64) : EReal :=
  max (Ideal.ofBits .f32 0xFF800000#32)
    ((Finset.univ : Finset (Fin 16)).fold max (Ideal.ofBits .f32 0xFF800000#32) (fun h => f (kCol h d)))

/-- The exponential of a key less the largest key of its lane. -/
def keyExp (f : Fin 3072 → EReal) (h : Fin 16) (d : Fin 64) : EReal := Ideal.exp (f (kCol h d) - keyMax f d)

/-- The softmax of the keys over the heads, at head `h` and lane `d`. -/
def keySoft (f : Fin 3072 → EReal) (h : Fin 16) (d : Fin 64) : EReal :=
  Ideal.div (keyExp f h d) (∑ h' : Fin 16, keyExp f h' d)

/-- The token's context matrix: normalised keys against values, summed over the heads. -/
def ctx (f : Fin 3072 → EReal) (d e : Fin 64) : EReal := ∑ h : Fin 16, keySoft f h d * f (vCol h e)

/-- The token's output at head `h`, lane `e`: its scaled queries against the context matrix. -/
def tok (f : Fin 3072 → EReal) (h : Fin 16) (e : Fin 64) : EReal :=
  ∑ d : Fin 64, (f (qCol h d) * Ideal.ofBits .f32 0x3E000000#32) * ctx f d e

abbrev SX : Shape := ⟨3, ![8, 4096, 1024]⟩
abbrev SWq : Shape := ⟨2, ![3072, 1024]⟩
abbrev SBq : Shape := ⟨1, ![3072]⟩
abbrev SWp : Shape := ⟨2, ![1024, 1024]⟩
abbrev SBp : Shape := ⟨1, ![1024]⟩
abbrev SH : Shape := ⟨4, ![8, 4096, 16, 64]⟩
abbrev SHt : Shape := ⟨4, ![8, 16, 4096, 64]⟩
abbrev SFlat : Shape := ⟨2, ![32768, 1024]⟩

/-- Token (b, n)'s projected values from the argument arrays. -/
def projAt (x : FVec Ideal SX .f32) (wq : FVec Ideal SWq .f32) (bq : FVec Ideal SBq .f32) (b : Fin 8) (n : Fin 4096) :
    Fin 3072 → EReal :=
  proj (fun c => x (ix3 b n c)) (fun o c => wq (ix2 o c)) (fun o => bq (ix1 o))

/-- Token (b, n)'s output at head `h`, lane `e`. -/
def headAt (x : FVec Ideal SX .f32) (wq : FVec Ideal SWq .f32) (bq : FVec Ideal SBq .f32)
    (b : Fin 8) (n : Fin 4096) (h : Fin 16) (e : Fin 64) : EReal := tok (projAt x wq bq b n) h e

/-- Every token's output, as the [8, 4096, 16, 64] array. -/
def heads (x : FVec Ideal SX .f32) (wq : FVec Ideal SWq .f32) (bq : FVec Ideal SBq .f32) : FVec Ideal SH .f32 :=
  fun j => headAt x wq bq (j 0) (j 1) (j 2) (j 3)

theorem heads_apply (x : FVec Ideal SX .f32) (wq : FVec Ideal SWq .f32) (bq : FVec Ideal SBq .f32)
    (b : Fin 8) (n : Fin 4096) (h : Fin 16) (e : Fin 64) : heads x wq bq (ix4 b n h e) = headAt x wq bq b n h e := rfl

theorem hTr : SH.Transposes [0, 2, 1, 3] SHt := by decide
theorem hRs : SHt.ShapeCasts SX := by decide

/-- The re-arrangement between the two projections: heads in front of positions, then read back as [8, 4096, 1024]. -/
def mix (a : FVec Ideal SH .f32) : FVec Ideal SX .f32 := shapeCast SX (transpose SHt [0, 2, 1, 3] a hTr) hRs

theorem hFlat : SH.ShapeCasts SFlat := by decide
theorem hUnflat : SFlat.ShapeCasts SH := by decide
theorem hRows : SX.ShapeCasts SFlat := by decide
theorem hUnrows : SFlat.ShapeCasts SX := by decide

/-- Every token's output as 32768 rows of 1024: row `b · 4096 + n` is token (b, n), column `h · 64 + e` is head `h`, lane `e`. -/
def flatHeads (x : FVec Ideal SX .f32) (wq : FVec Ideal SWq .f32) (bq : FVec Ideal SBq .f32) : FVec Ideal SFlat .f32 :=
  shapeCast SFlat (heads x wq bq) hFlat

/-- The last projection of row `r` of a [32768, 1024] array, at output `o`. -/
def rowOut (s : FVec Ideal SFlat .f32) (wp : FVec Ideal SWp .f32) (bp : FVec Ideal SBp .f32) (r : Fin 32768) (o : Fin 1024) : EReal :=
  (∑ c : Fin 1024, s (ix2 r c) * wp (ix2 o c)) + bp (ix1 o)

/-- The last projection applied to every row. -/
def flatOut (s : FVec Ideal SFlat .f32) (wp : FVec Ideal SWp .f32) (bp : FVec Ideal SBp .f32) : FVec Ideal SFlat .f32 :=
  fun i => rowOut s wp bp (i 0) (i 1)

theorem flatOut_apply (s : FVec Ideal SFlat .f32) (wp : FVec Ideal SWp .f32) (bp : FVec Ideal SBp .f32) (r : Fin 32768) (o : Fin 1024) :
    flatOut s wp bp (ix2 r o) = rowOut s wp bp r o := rfl

/-- The last projection at (b, n, o). -/
def outAt (s : FVec Ideal SX .f32) (wp : FVec Ideal SWp .f32) (bp : FVec Ideal SBp .f32) (b : Fin 8) (n : Fin 4096) (o : Fin 1024) : EReal :=
  (∑ c : Fin 1024, s (ix3 b n c) * wp (ix2 o c)) + bp (ix1 o)

/-- The result array. -/
def result (x : FVec Ideal SX .f32) (wq : FVec Ideal SWq .f32) (bq : FVec Ideal SBq .f32) (wp : FVec Ideal SWp .f32)
    (bp : FVec Ideal SBp .f32) : FVec Ideal SX .f32 :=
  fun i => outAt (mix (heads x wq bq)) wp bp (i 0) (i 1) (i 2)

theorem result_apply (x : FVec Ideal SX .f32) (wq : FVec Ideal SWq .f32) (bq : FVec Ideal SBq .f32) (wp : FVec Ideal SWp .f32)
    (bp : FVec Ideal SBp .f32) (b : Fin 8) (n : Fin 4096) (o : Fin 1024) :
    result x wq bq wp bp (ix3 b n o) = outAt (mix (heads x wq bq)) wp bp b n o := rfl

end Cert.Attn

end
-- ==== Proof.HostSide.lean ====
/-
  The host operations around the two kernel regions, read back: what each region finds in the buffers it reads, and the
  program's result, as the operations' terms of the argument arrays and of the arrays the regions leave.

  Before the first region the input is read as 32768 rows of 1024, the first weight matrix is transposed (and narrowed, which
  changes nothing at the ideal instance) and its bias becomes one row. Between the regions the first region's
  [32768, 1024] array is read as [8, 4096, 16, 64], the head axis is moved in front of the position axis, and the
  array is read back as [8, 4096, 1024] and again as 32768 rows. After the second region its array is read as [8, 4096, 1024].
  The second weight matrix and bias are prepared before the first region and untouched by it.
-/
import proofs.«169469_j10608569221191_1_alg».proof.Proof.Gen.KernelIdeal.Frame
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The five argument arrays on core `c`, at their literal shapes. -/
abbrev argX (c : Dev nD) : S8x4096x1024.Idx → Elt F .f32 := m ((c : Thread nD τ).loc main_arg0)
abbrev argWq (c : Dev nD) : S3072x1024.Idx → Elt F .f32 := m ((c : Thread nD τ).loc main_arg1)
abbrev argBq (c : Dev nD) : S3072.Idx → Elt F .f32 := m ((c : Thread nD τ).loc main_arg2)
abbrev argWp (c : Dev nD) : S1024x1024.Idx → Elt F .f32 := m ((c : Thread nD τ).loc main_arg3)
abbrev argBp (c : Dev nD) : S1024.Idx → Elt F .f32 := m ((c : Thread nD τ).loc main_arg4)

/-- The array the first region leaves in its output window, and the second region's. -/
abbrev arr0 (c : Dev nD) : S32768x1024.Idx → Elt F .f32 := (dat0 (V1 m ρ) c).arrAt 3 cfg0.N
abbrev arr1 (c : Dev nD) : S32768x1024.Idx → Elt F .f32 := (dat1 (V3 m ρ) c).arrAt 3 cfg1.N

/-- The first region's row operand: the input read as 32768 rows. -/
theorem V1_x (c : Dev nD) :
    (V1 m ρ c main_v0 : S32768x1024.Idx → Elt F .f32) = shapeCast S32768x1024 (argX m c) shapeCasts_S8x4096x1024_S32768x1024 := by
  dsimp only [V1, W1, hostOps0]
  after_results
  rfl

/-- Its weight operand: the first weight matrix transposed. -/
theorem V1_wq (c : Dev nD) :
    (V1 m ρ c main_v2 : S1024x3072.Idx → Elt F .bf16)
      = truncf .bf16 (transpose S1024x3072 [1, 0] (argWq m c) transposes_S3072x1024_S1024x3072_1_0) bitsLt_bf16_f32 := by
  dsimp only [V1, W1, hostOps0]
  after_results

/-- Its bias operand: the first bias as one row. -/
theorem V1_bq (c : Dev nD) :
    (V1 m ρ c main_v3 : S1x3072.Idx → Elt F .f32) = shapeCast S1x3072 (argBq m c) shapeCasts_S3072_S1x3072 := by
  dsimp only [V1, W1, hostOps0]
  after_results
  rfl

/-- No operation between the regions writes buffer `b`. -/
theorem hostOps1_keeps (c : Dev nD) (b : Ref sig .tc)
    (hb : (hostOps1 : List (HloOp τ sig (Elt F))).Forall fun op => Proc.devRef .tc b ∉ op.writes) :
    W3 m ρ c (Proc.devRef .tc b) = W2 m ρ c (Proc.devRef .tc b) :=
  StableHlo.after_of_forall_not_mem (b := Proc.devRef .tc b) _ _ (List.forall_iff_forall_mem.mp hb)

/-- The second region's row operand: the first region's array with heads moved in front of positions, as 32768 rows. -/
theorem V3_s (c : Dev nD) :
    (V3 m ρ c main_v11 : S32768x1024.Idx → Elt F .f32)
      = shapeCast S32768x1024
          (shapeCast S8x4096x1024
            (transpose S8x16x4096x64 [0, 2, 1, 3]
              (shapeCast S8x4096x16x64 (arr0 m ρ c) shapeCasts_S32768x1024_S8x4096x16x64)
              transposes_S8x4096x16x64_S8x16x4096x64_0_2_1_3)
            shapeCasts_S8x16x4096x64_S8x4096x1024)
          shapeCasts_S8x4096x1024_S32768x1024 := by
  have e : W2 m ρ c (Proc.devRef .tc main_v7) = arr0 m ρ c := W2_arr m ρ c 3
  dsimp only [V3, W3, hostOps1]
  after_results
  rw [e]
  rfl

/-- Its weight operand: the second weight matrix transposed (prepared before the first region, untouched since). -/
theorem V3_wp (c : Dev nD) :
    (V3 m ρ c main_v5 : S1024x1024.Idx → Elt F .bf16)
      = truncf .bf16 (transpose S1024x1024 [1, 0] (argWp m c) transposes_S1024x1024_S1024x1024_1_0) bitsLt_bf16_f32 := by
  have e1 : W3 m ρ c (Proc.devRef .tc main_v5) = W2 m ρ c (Proc.devRef .tc main_v5) :=
    hostOps1_keeps m ρ c main_v5 (by
      simp only [hostOps1, List.Forall, StableHlo.unary_writes, StableHlo.reshape_writes, Finset.mem_singleton]
      repeat' apply And.intro
      all_goals exact StableHlo.devRef_ne_of_ne (by decide))
  have e2 : W2 m ρ c (Proc.devRef .tc main_v5) = W1 m ρ c (Proc.devRef .tc main_v5) := W2_of_ne m ρ c main_v5 (by decide)
  show W3 m ρ c (Proc.devRef .tc main_v5) = _
  rw [e1, e2]
  dsimp only [W1, hostOps0]
  after_results

/-- Its bias operand: the second bias as one row. -/
theorem V3_bp (c : Dev nD) :
    (V3 m ρ c main_v6 : S1x1024.Idx → Elt F .f32) = shapeCast S1x1024 (argBp m c) shapeCasts_S1024_S1x1024 := by
  have e1 : W3 m ρ c (Proc.devRef .tc main_v6) = W2 m ρ c (Proc.devRef .tc main_v6) :=
    hostOps1_keeps m ρ c main_v6 (by
      simp only [hostOps1, List.Forall, StableHlo.unary_writes, StableHlo.reshape_writes, Finset.mem_singleton]
      repeat' apply And.intro
      all_goals exact StableHlo.devRef_ne_of_ne (by decide))
  have e2 : W2 m ρ c (Proc.devRef .tc main_v6) = W1 m ρ c (Proc.devRef .tc main_v6) := W2_of_ne m ρ c main_v6 (by decide)
  show W3 m ρ c (Proc.devRef .tc main_v6) = _
  rw [e1, e2]
  dsimp only [W1, hostOps0]
  after_results
  rfl

/-- The program's result: the second region's array read as [8, 4096, 1024]. -/
theorem W5_out (c : Dev nD) :
    (W5 m ρ c (Proc.devRef .tc main_v13) : S8x4096x1024.Idx → Elt F .f32)
      = shapeCast S8x4096x1024 (arr1 m ρ c) shapeCasts_S32768x1024_S8x4096x1024 := by
  have e : W4 m ρ c (Proc.devRef .tc main_v12) = arr1 m ρ c := W4_arr m ρ c 3
  dsimp only [W5, hostOps2]
  after_results
  rw [e]
  rfl

end Cert.KernelIdeal.Hand

end
-- ==== Proof.LibHeadOps.lean ====
/-
  Operations on a block of rows × heads × lanes read at an index, at the ideal instance, for any number of rows, heads
  and lanes: a reduction ACROSS THE HEADS (a sum, a maximum) read at (row, lane) is the sum, or the fold of `max`, over
  the heads of the entries at that row and lane; a rows × lanes array given a unit head axis and broadcast along the
  heads reads, at (row, head, lane), its entry at (row, lane); a row of `heads · lanes` values split into heads × lanes
  (and merged back) reads the value at column `head · lanes + lane`; a slice of columns from an offset reads the column
  `offset + j`; one row broadcast down the rows reads that row's entry.
-/
import Idealize.ShloMosaic.PureOps.Ideal.Laws
import Idealize.ShloMosaic.Lib.ValueLayout

noncomputable section

open scoped BigOperators

namespace Cert.HeadOps

open Idealize.ShloMosaic Idealize.ShloMosaic.ValueIdx

variable {R H D N M : ℕ} {φ : FTy} {α : Type}

/-- Over (row, lane) of a rows × heads × lanes block reduced across the heads, the source index with head `k` put back
    is (row, k, lane). -/
theorem lift_head (h : (⟨3, ![R, H, D]⟩ : Shape).Reduces [(1 : Fin 3)] ⟨2, ![R, D]⟩) (r : Fin R) (d : Fin D) (k : Fin H) :
    h.lift (ix2 r d) k = ix3 r k d := by
  funext c
  apply Fin.ext
  match c with
  | ⟨0, _⟩ => rfl
  | ⟨1, _⟩ => rfl
  | ⟨2, _⟩ => rfl

/-- A sum across the heads, read at (row, lane). -/
theorem headSum_apply (src : FVec Ideal ⟨3, ![R, H, D]⟩ φ) (acc : BitVec φ.bits)
    (h : (⟨3, ![R, H, D]⟩ : Shape).Reduces [(1 : Fin 3)] ⟨2, ![R, D]⟩) (hφ : FKind.Formats φ)
    (hacc : acc = FKind.add.neutral φ hφ) (r : Fin R) (d : Fin D) :
    multiReduction .add [(1 : Fin 3)] ⟨2, ![R, D]⟩ src acc h hφ hacc (ix2 r d) = ∑ k : Fin H, src (ix3 r k d) :=
  (Ideal.multiReduction_add_single src acc h hφ hacc (ix2 r d)).trans
    (Finset.sum_congr rfl fun k _ => congrArg src (lift_head h r d k))

/-- A maximum across the heads, read at (row, lane): the fold of `max` from the accumulator's value. -/
theorem headMax_apply (src : FVec Ideal ⟨3, ![R, H, D]⟩ φ) (acc : BitVec φ.bits)
    (h : (⟨3, ![R, H, D]⟩ : Shape).Reduces [(1 : Fin 3)] ⟨2, ![R, D]⟩) (hφ : FKind.Formats φ)
    (hacc : acc = FKind.maximumf.neutral φ hφ) (r : Fin R) (d : Fin D) :
    multiReduction .maximumf [(1 : Fin 3)] ⟨2, ![R, D]⟩ src acc h hφ hacc (ix2 r d)
      = (Finset.univ : Finset (Fin H)).fold max (Ideal.ofBits φ acc) (fun k => src (ix3 r k d)) := by
  have e : src ∘ h.lift (ix2 r d) = fun k : Fin H => src (ix3 r k d) :=
    funext fun k => congrArg src (lift_head h r d k)
  rw [Ideal.multiReduction_maximumf_single, e]
  rfl

/-- A rows × lanes array given a unit head axis reads, at (r, u, d), its entry at (r, d). -/
theorem shapeCast_ab_a1b_apply (x : (⟨2, ![R, D]⟩ : Shape).Idx → α) (h : (⟨2, ![R, D]⟩ : Shape).ShapeCasts ⟨3, ![R, 1, D]⟩)
    (r : Fin R) (u : Fin 1) (d : Fin D) : shapeCast ⟨3, ![R, 1, D]⟩ x h (ix3 r u d) = x (ix2 r d) :=
  shapeCast_apply x h _ _ (by
    have hu : u.val = 0 := by omega
    rw [Shape.rowMajor_val_two, Shape.rowMajor_val_three]
    show r.val * D + d.val = (r.val * 1 + u.val) * D + d.val
    rw [hu, Nat.mul_one, Nat.add_zero])

/-- A rows × 1 × lanes array broadcast along the heads reads, at (r, k, d), its entry at (r, 0, d). -/
theorem broadcastTo_a1b_ahb_apply (v : (⟨3, ![R, 1, D]⟩ : Shape).Idx → α) (h : (⟨3, ![R, 1, D]⟩ : Shape).Broadcasts ⟨3, ![R, H, D]⟩)
    (r : Fin R) (k : Fin H) (d : Fin D) : broadcastTo ⟨3, ![R, H, D]⟩ v h (ix3 r k d) = v (ix3 r (0 : Fin 1) d) := by
  refine broadcastTo_apply v h (ix3 r k d) (ix3 r (0 : Fin 1) d) fun ax => ?_
  match ax with
  | ⟨0, _⟩ =>
    show r.val = if R = 1 then 0 else r.val
    split
    · have := r.isLt; omega
    · rfl
  | ⟨1, _⟩ =>
    show (0 : ℕ) = if (1 : ℕ) = 1 then 0 else k.val
    rw [if_pos rfl]
  | ⟨2, _⟩ =>
    show d.val = if D = 1 then 0 else d.val
    split
    · have := d.isLt; omega
    · rfl

/-- The two together: a rows × lanes array, given a unit head axis and broadcast along the heads, reads its (r, d) entry. -/
theorem headSplat_apply (x : (⟨2, ![R, D]⟩ : Shape).Idx → α) (hc : (⟨2, ![R, D]⟩ : Shape).ShapeCasts ⟨3, ![R, 1, D]⟩)
    (hb : (⟨3, ![R, 1, D]⟩ : Shape).Broadcasts ⟨3, ![R, H, D]⟩) (r : Fin R) (k : Fin H) (d : Fin D) :
    broadcastTo ⟨3, ![R, H, D]⟩ (shapeCast ⟨3, ![R, 1, D]⟩ x hc) hb (ix3 r k d) = x (ix2 r d) := by
  rw [broadcastTo_a1b_ahb_apply, shapeCast_ab_a1b_apply]

/-- A rows × heads × lanes block has `R · H · D` elements. -/
theorem numel_rhd : (⟨3, ![R, H, D]⟩ : Shape).numel = R * H * D := by
  unfold Shape.numel
  exact Fin.prod_univ_three _

/-- A rows × columns matrix has `R · N` elements. -/
theorem numel_rn : (⟨2, ![R, N]⟩ : Shape).numel = R * N := by
  unfold Shape.numel
  exact Fin.prod_univ_two _

/-- When a matrix with at least one row has as many elements as a rows × heads × lanes block of the same number of
    rows, its row length is `H · D`. -/
theorem rowLen_of_numel (e : R * H * D = R * N) (r : Fin R) : H * D = N := by
  have hR : 0 < R := Nat.lt_of_le_of_lt (Nat.zero_le _) r.isLt
  rw [Nat.mul_assoc] at e
  exact Nat.eq_of_mul_eq_mul_left hR e

/-- Row-major position of (r, k, d) in the block is that of (r, k · D + d) in the matrix of row length `H · D`. -/
theorem split_arith (r k d col : ℕ) (hN : H * D = N) (hcol : col = k * D + d) :
    r * N + col = (r * H + k) * D + d := by
  rw [hcol, ← hN, Nat.add_mul, Nat.mul_assoc, Nat.add_assoc]

/-- Rows of `N` values split into heads × lanes: (r, k, d) reads column `k · D + d`. -/
theorem shapeCast_split_apply (x : (⟨2, ![R, N]⟩ : Shape).Idx → α) (h : (⟨2, ![R, N]⟩ : Shape).ShapeCasts ⟨3, ![R, H, D]⟩)
    (r : Fin R) (k : Fin H) (d : Fin D) (col : Fin N) (hcol : col.val = k.val * D + d.val) :
    shapeCast ⟨3, ![R, H, D]⟩ x h (ix3 r k d) = x (ix2 r col) :=
  shapeCast_apply x h _ _ (by
    have hN : H * D = N := rowLen_of_numel ((numel_rhd (R := R) (H := H) (D := D)).symm.trans (h.trans numel_rn)) r
    rw [Shape.rowMajor_val_two, Shape.rowMajor_val_three]
    show r.val * N + col.val = (r.val * H + k.val) * D + d.val
    exact split_arith r.val k.val d.val col.val hN hcol)

/-- Heads × lanes merged back into rows of `N` values: column `k · D + d` reads (r, k, d). -/
theorem shapeCast_merge_apply (x : (⟨3, ![R, H, D]⟩ : Shape).Idx → α) (h : (⟨3, ![R, H, D]⟩ : Shape).ShapeCasts ⟨2, ![R, N]⟩)
    (r : Fin R) (k : Fin H) (d : Fin D) (col : Fin N) (hcol : col.val = k.val * D + d.val) :
    shapeCast ⟨2, ![R, N]⟩ x h (ix2 r col) = x (ix3 r k d) :=
  shapeCast_apply x h _ _ (by
    have hN : H * D = N := rowLen_of_numel ((numel_rhd (R := R) (H := H) (D := D)).symm.trans (h.symm.trans numel_rn)) r
    rw [Shape.rowMajor_val_two, Shape.rowMajor_val_three]
    show (r.val * H + k.val) * D + d.val = r.val * N + col.val
    exact (split_arith r.val k.val d.val col.val hN hcol).symm)

/-- A slice of `N` columns starting at column `off`: (r, j) reads column `off + j`. -/
theorem sliceCols_apply (x : (⟨2, ![R, M]⟩ : Shape).Idx → α) (off : ℕ) (h : (⟨2, ![R, M]⟩ : Shape).Slices ![0, off] ⟨2, ![R, N]⟩)
    (r : Fin R) (j : Fin N) (col : Fin M) (hcol : col.val = off + j.val) :
    extractStridedSlice ⟨2, ![R, N]⟩ ![0, off] x h (ix2 r j) = x (ix2 r col) := by
  refine extractStridedSlice_apply ![0, off] x h (ix2 r j) (ix2 r col) fun ax => ?_
  match ax with
  | ⟨0, _⟩ =>
    show r.val = 0 + r.val
    rw [Nat.zero_add]
  | ⟨1, _⟩ =>
    show col.val = off + j.val
    exact hcol

/-- One row broadcast down `R` rows reads, at (r, c), the row's entry at `c`. -/
theorem broadcastTo_1b_ab_apply (v : (⟨2, ![1, N]⟩ : Shape).Idx → α) (h : (⟨2, ![1, N]⟩ : Shape).Broadcasts ⟨2, ![R, N]⟩)
    (r : Fin R) (c : Fin N) : broadcastTo ⟨2, ![R, N]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if N = 1 then 0 else c.val
    split
    · have := c.isLt; omega
    · rfl

end Cert.HeadOps

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.BodyDots.lean ====
/-
  The four matrix products of the two kernel bodies, each into a zero accumulator, read at an index at the ideal instance:
  the projection of a block of 256 rows (1024 inputs against 3072 outputs), the per-row context matrix (normalised keys
  against values, summed over the 16 heads), the per-row output (queries against the context matrix, summed over the 64
  lanes), and the last projection of a block of 1024 rows. In the two middle ones the row is a batch axis: row `r` of the
  result depends on row `r` of the operands only.
-/
import proofs.«169469_j10608569221191_1_alg».proof.KernelIdeal
import proofs.«169469_j10608569221191_1_alg».proof.Proof.Gen.KernelIdeal
import proofs.«169469_j10608569221191_1_alg».proof.Proof.LibRowOps
import Idealize.ShloMosaic.PureOps.Ideal.Laws
import Idealize.ShloMosaic.Lib.ValueIdx

noncomputable section

open scoped BigOperators

namespace Cert.KernelIdeal.Hand

open Idealize.ShloMosaic Idealize.ShloMosaic.ValueIdx
open Cert.KernelIdeal Cert.KernelIdeal.Gen

/-- The first projection of a block: (p, o) is row `p` of the left operand against column `o` of the right. -/
theorem projDot_apply (lhs : FVec Ideal S256x1024 .bf16) (rhs : FVec Ideal S1024x3072 .bf16) (p : Fin 256) (o : Fin 3072) :
    matmul dot_S256x1024_S1024x3072_S256x3072_1_0_0_1_n_n none lhs rhs (constant S256x3072 .f32 0x00000000#32) (ix2 p o)
      = ∑ k : Fin 1024, lhs (ix2 p k) * rhs (ix2 k o) :=
  Cert.RowOps.matmul_row_apply dot_S256x1024_S1024x3072_S256x3072_1_0_0_1_n_n rfl rfl rfl rfl rfl rfl none lhs rhs p o

/-- The left operand's row is the result's row: the row is a batch axis. -/
theorem ctxDot_lhs_0 (i : S256x64x64.Idx) (q : dot_S256x16x64_S256x16x64_S256x64x64_1_1_2_2_0_0.contr.Idx) :
    (dot_S256x16x64_S256x16x64_S256x64x64_1_1_2_2_0_0.lhsIdx i q 0).val = (i 0).val := by
  unfold DotDims.lhsIdx
  rw [dif_pos (show (0 : Fin S256x16x64.rank) ∈ dot_S256x16x64_S256x16x64_S256x64x64_1_1_2_2_0_0.lhsBatch by decide)]
  rfl
/-- The left operand's axis 1 is the contracted one. -/
theorem ctxDot_lhs_1 (i : S256x64x64.Idx) (q : dot_S256x16x64_S256x16x64_S256x64x64_1_1_2_2_0_0.contr.Idx) :
    (dot_S256x16x64_S256x16x64_S256x64x64_1_1_2_2_0_0.lhsIdx i q 1).val = (q ⟨0, by decide⟩).val :=
  dot_S256x16x64_S256x16x64_S256x64x64_1_1_2_2_0_0.lhsIdx_val_of_single rfl i q
/-- The left operand's axis 2 is free: it is the result's axis 1. -/
theorem ctxDot_lhs_2 (i : S256x64x64.Idx) (q : dot_S256x16x64_S256x16x64_S256x64x64_1_1_2_2_0_0.contr.Idx) :
    (dot_S256x16x64_S256x16x64_S256x64x64_1_1_2_2_0_0.lhsIdx i q 2).val = (i 1).val := by
  unfold DotDims.lhsIdx
  rw [dif_neg (show ¬(2 : Fin S256x16x64.rank) ∈ dot_S256x16x64_S256x16x64_S256x64x64_1_1_2_2_0_0.lhsBatch by decide), dif_pos (show (2 : Fin S256x16x64.rank) ∈ dot_S256x16x64_S256x16x64_S256x64x64_1_1_2_2_0_0.lhsNonContracting by decide)]
  rfl
/-- The right operand's row is the result's row: the row is a batch axis. -/
theorem ctxDot_rhs_0 (i : S256x64x64.Idx) (q : dot_S256x16x64_S256x16x64_S256x64x64_1_1_2_2_0_0.contr.Idx) :
    (dot_S256x16x64_S256x16x64_S256x64x64_1_1_2_2_0_0.rhsIdx i q 0).val = (i 0).val := by
  unfold DotDims.rhsIdx
  rw [dif_pos (show (0 : Fin S256x16x64.rank) ∈ dot_S256x16x64_S256x16x64_S256x64x64_1_1_2_2_0_0.rhsBatch by decide)]
  rfl
/-- The right operand's axis 1 is the contracted one. -/
theorem ctxDot_rhs_1 (i : S256x64x64.Idx) (q : dot_S256x16x64_S256x16x64_S256x64x64_1_1_2_2_0_0.contr.Idx) :
    (dot_S256x16x64_S256x16x64_S256x64x64_1_1_2_2_0_0.rhsIdx i q 1).val = (q ⟨0, by decide⟩).val :=
  dot_S256x16x64_S256x16x64_S256x64x64_1_1_2_2_0_0.rhsIdx_val_of_single rfl i q
/-- The right operand's axis 2 is free: it is the result's axis 2. -/
theorem ctxDot_rhs_2 (i : S256x64x64.Idx) (q : dot_S256x16x64_S256x16x64_S256x64x64_1_1_2_2_0_0.contr.Idx) :
    (dot_S256x16x64_S256x16x64_S256x64x64_1_1_2_2_0_0.rhsIdx i q 2).val = (i 2).val := by
  unfold DotDims.rhsIdx
  rw [dif_neg (show ¬(2 : Fin S256x16x64.rank) ∈ dot_S256x16x64_S256x16x64_S256x64x64_1_1_2_2_0_0.rhsBatch by decide), dif_pos (show (2 : Fin S256x16x64.rank) ∈ dot_S256x16x64_S256x16x64_S256x64x64_1_1_2_2_0_0.rhsNonContracting by decide)]
  rfl

/-- The context matrix of row `r`: (r, a, b) sums, over the heads `k`, the left operand at (r, k, a) times the right at (r, k, b). -/
theorem ctxDot_apply (lhs : FVec Ideal S256x16x64 .bf16) (rhs : FVec Ideal S256x16x64 .bf16) (r : Fin 256) (a b : Fin 64) :
    matmul dot_S256x16x64_S256x16x64_S256x64x64_1_1_2_2_0_0 none lhs rhs (constant S256x64x64 .f32 0x00000000#32) (ix3 r a b)
      = ∑ k : Fin 16, lhs (ix3 r k a) * rhs (ix3 r k b) := by
  simp only [matmul]
  rw [Ideal.matmul_constant_zero_apply, ← Equiv.sum_comp (contrEquiv1 dot_S256x16x64_S256x16x64_S256x64x64_1_1_2_2_0_0 16 rfl rfl).symm]
  refine Finset.sum_congr rfl fun k _ => ?_
  have hk := contrEquiv1_symm_val dot_S256x16x64_S256x16x64_S256x64x64_1_1_2_2_0_0 16 rfl rfl k
  have el : dot_S256x16x64_S256x16x64_S256x64x64_1_1_2_2_0_0.lhsIdx (ix3 r a b) ((contrEquiv1 dot_S256x16x64_S256x16x64_S256x64x64_1_1_2_2_0_0 16 rfl rfl).symm k) = ix3 r k a := funext fun c => Fin.ext (by
    match c with
    | ⟨0, _⟩ => exact ctxDot_lhs_0 _ _
    | ⟨1, _⟩ => exact (ctxDot_lhs_1 _ _).trans hk
    | ⟨2, _⟩ => exact ctxDot_lhs_2 _ _)
  have er : dot_S256x16x64_S256x16x64_S256x64x64_1_1_2_2_0_0.rhsIdx (ix3 r a b) ((contrEquiv1 dot_S256x16x64_S256x16x64_S256x64x64_1_1_2_2_0_0 16 rfl rfl).symm k) = ix3 r k b := funext fun c => Fin.ext (by
    match c with
    | ⟨0, _⟩ => exact ctxDot_rhs_0 _ _
    | ⟨1, _⟩ => exact (ctxDot_rhs_1 _ _).trans hk
    | ⟨2, _⟩ => exact ctxDot_rhs_2 _ _)
  rw [el, er]

/-- The left operand's row is the result's row: the row is a batch axis. -/
theorem outDot_lhs_0 (i : S256x16x64.Idx) (q : dot_S256x16x64_S256x64x64_S256x16x64_2_1_1_2_0_0.contr.Idx) :
    (dot_S256x16x64_S256x64x64_S256x16x64_2_1_1_2_0_0.lhsIdx i q 0).val = (i 0).val := by
  unfold DotDims.lhsIdx
  rw [dif_pos (show (0 : Fin S256x16x64.rank) ∈ dot_S256x16x64_S256x64x64_S256x16x64_2_1_1_2_0_0.lhsBatch by decide)]
  rfl
/-- The left operand's axis 1 is free: it is the result's axis 1. -/
theorem outDot_lhs_1 (i : S256x16x64.Idx) (q : dot_S256x16x64_S256x64x64_S256x16x64_2_1_1_2_0_0.contr.Idx) :
    (dot_S256x16x64_S256x64x64_S256x16x64_2_1_1_2_0_0.lhsIdx i q 1).val = (i 1).val := by
  unfold DotDims.lhsIdx
  rw [dif_neg (show ¬(1 : Fin S256x16x64.rank) ∈ dot_S256x16x64_S256x64x64_S256x16x64_2_1_1_2_0_0.lhsBatch by decide), dif_pos (show (1 : Fin S256x16x64.rank) ∈ dot_S256x16x64_S256x64x64_S256x16x64_2_1_1_2_0_0.lhsNonContracting by decide)]
  rfl
/-- The left operand's axis 2 is the contracted one. -/
theorem outDot_lhs_2 (i : S256x16x64.Idx) (q : dot_S256x16x64_S256x64x64_S256x16x64_2_1_1_2_0_0.contr.Idx) :
    (dot_S256x16x64_S256x64x64_S256x16x64_2_1_1_2_0_0.lhsIdx i q 2).val = (q ⟨0, by decide⟩).val :=
  dot_S256x16x64_S256x64x64_S256x16x64_2_1_1_2_0_0.lhsIdx_val_of_single rfl i q
/-- The right operand's row is the result's row: the row is a batch axis. -/
theorem outDot_rhs_0 (i : S256x16x64.Idx) (q : dot_S256x16x64_S256x64x64_S256x16x64_2_1_1_2_0_0.contr.Idx) :
    (dot_S256x16x64_S256x64x64_S256x16x64_2_1_1_2_0_0.rhsIdx i q 0).val = (i 0).val := by
  unfold DotDims.rhsIdx
  rw [dif_pos (show (0 : Fin S256x64x64.rank) ∈ dot_S256x16x64_S256x64x64_S256x16x64_2_1_1_2_0_0.rhsBatch by decide)]
  rfl
/-- The right operand's axis 1 is the contracted one. -/
theorem outDot_rhs_1 (i : S256x16x64.Idx) (q : dot_S256x16x64_S256x64x64_S256x16x64_2_1_1_2_0_0.contr.Idx) :
    (dot_S256x16x64_S256x64x64_S256x16x64_2_1_1_2_0_0.rhsIdx i q 1).val = (q ⟨0, by decide⟩).val :=
  dot_S256x16x64_S256x64x64_S256x16x64_2_1_1_2_0_0.rhsIdx_val_of_single rfl i q
/-- The right operand's axis 2 is free: it is the result's axis 2. -/
theorem outDot_rhs_2 (i : S256x16x64.Idx) (q : dot_S256x16x64_S256x64x64_S256x16x64_2_1_1_2_0_0.contr.Idx) :
    (dot_S256x16x64_S256x64x64_S256x16x64_2_1_1_2_0_0.rhsIdx i q 2).val = (i 2).val := by
  unfold DotDims.rhsIdx
  rw [dif_neg (show ¬(2 : Fin S256x64x64.rank) ∈ dot_S256x16x64_S256x64x64_S256x16x64_2_1_1_2_0_0.rhsBatch by decide), dif_pos (show (2 : Fin S256x64x64.rank) ∈ dot_S256x16x64_S256x64x64_S256x16x64_2_1_1_2_0_0.rhsNonContracting by decide)]
  rfl

/-- The output of row `r`: (r, h, e) sums, over the lanes `k`, the left operand at (r, h, k) times the right at (r, k, e). -/
theorem outDot_apply (lhs : FVec Ideal S256x16x64 .bf16) (rhs : FVec Ideal S256x64x64 .bf16) (r : Fin 256) (h : Fin 16) (e : Fin 64) :
    matmul dot_S256x16x64_S256x64x64_S256x16x64_2_1_1_2_0_0 none lhs rhs (constant S256x16x64 .f32 0x00000000#32) (ix3 r h e)
      = ∑ k : Fin 64, lhs (ix3 r h k) * rhs (ix3 r k e) := by
  simp only [matmul]
  rw [Ideal.matmul_constant_zero_apply, ← Equiv.sum_comp (contrEquiv1 dot_S256x16x64_S256x64x64_S256x16x64_2_1_1_2_0_0 64 rfl rfl).symm]
  refine Finset.sum_congr rfl fun k _ => ?_
  have hk := contrEquiv1_symm_val dot_S256x16x64_S256x64x64_S256x16x64_2_1_1_2_0_0 64 rfl rfl k
  have el : dot_S256x16x64_S256x64x64_S256x16x64_2_1_1_2_0_0.lhsIdx (ix3 r h e) ((contrEquiv1 dot_S256x16x64_S256x64x64_S256x16x64_2_1_1_2_0_0 64 rfl rfl).symm k) = ix3 r h k := funext fun c => Fin.ext (by
    match c with
    | ⟨0, _⟩ => exact outDot_lhs_0 _ _
    | ⟨1, _⟩ => exact outDot_lhs_1 _ _
    | ⟨2, _⟩ => exact (outDot_lhs_2 _ _).trans hk)
  have er : dot_S256x16x64_S256x64x64_S256x16x64_2_1_1_2_0_0.rhsIdx (ix3 r h e) ((contrEquiv1 dot_S256x16x64_S256x64x64_S256x16x64_2_1_1_2_0_0 64 rfl rfl).symm k) = ix3 r k e := funext fun c => Fin.ext (by
    match c with
    | ⟨0, _⟩ => exact outDot_rhs_0 _ _
    | ⟨1, _⟩ => exact (outDot_rhs_1 _ _).trans hk
    | ⟨2, _⟩ => exact outDot_rhs_2 _ _)
  rw [el, er]

/-- The last projection of a block: (p, o) is row `p` of the left operand against column `o` of the right. -/
theorem lastDot_apply (lhs : FVec Ideal S1024x1024 .bf16) (rhs : FVec Ideal S1024x1024 .bf16) (p : Fin 1024) (o : Fin 1024) :
    matmul dot_S1024x1024_S1024x1024_S1024x1024_1_0_0_1_n_n none lhs rhs (constant S1024x1024 .f32 0x00000000#32) (ix2 p o)
      = ∑ k : Fin 1024, lhs (ix2 p k) * rhs (ix2 k o) :=
  Cert.RowOps.matmul_row_apply dot_S1024x1024_S1024x1024_S1024x1024_1_0_0_1_n_n rfl rfl rfl rfl rfl rfl none lhs rhs p o

end Cert.KernelIdeal.Hand

end
-- ==== Proof.Body0.lean ====
/-
  The first kernel body at an index, at the ideal instance. The body works on a block of 256 rows: it projects each row to
  3072 values, splits them into queries, keys and values of 16 heads × 64 lanes, normalises the keys by a softmax across the
  heads, forms the row's context matrix and its output, and stores the 16 × 64 outputs of each row as 1024 columns. Row `p`,
  column `h · 64 + e` of what it stores is therefore the per-token function `tok` of row `p`'s projected values at head `h`,
  lane `e`; no other row of the block enters.
-/
import proofs.«169469_j10608569221191_1_alg».proof.Proof.Gen.KernelIdeal.Skeleton
import proofs.«169469_j10608569221191_1_alg».proof.Proof.Spec
import proofs.«169469_j10608569221191_1_alg».proof.Proof.LibHeadOps
import proofs.«169469_j10608569221191_1_alg».proof.Proof.BodyDots

noncomputable section

open scoped BigOperators

namespace Cert.KernelIdeal.Hand

open Idealize.ShloMosaic Idealize.ShloMosaic.TcCoe Idealize.ShloMosaic.ValueIdx
open Cert.KernelIdeal Cert.KernelIdeal.Gen

/-- Row `p`'s projected values, from the body's three loaded blocks: the rows, the transposed weights, the bias row. -/
def blockProj (x0 : Vec Ideal S256x1024 .f32) (x1 : Vec Ideal S1024x3072 .bf16) (x2 : Vec Ideal S1x3072 .f32) (p : Fin 256) :
    Fin 3072 → EReal :=
  Attn.proj (fun c => x0 (ix2 p c)) (fun o c => x1 (ix2 c o)) (fun o => x2 (ix2 (0 : Fin 1) o))

/-! ## The body's stages, each over an arbitrary operand, read at an index -/

/-- The projection of the block: the rows (narrowed, which changes nothing at the ideal instance) against the weights, plus
    the bias row broadcast down the rows. -/
private theorem proj_stage (x0 : FVec Ideal S256x1024 .f32) (x1 : FVec Ideal S1024x3072 .bf16) (x2 : FVec Ideal S1x3072 .f32)
    (h0 : S256x1024.ShapeCasts S256x1024) (hb : FTy.bits .bf16 < FTy.bits .f32) (h1 : S1024x3072.ShapeCasts S1024x3072)
    (h2 : S1x3072.ShapeCasts S1x3072) (hbr : S1x3072.Broadcasts S256x3072) (p : Fin 256) (o : Fin 3072) :
    addf (F := Ideal) (matmul dot_S256x1024_S1024x3072_S256x3072_1_0_0_1_n_n none
          (truncf .bf16 (shapeCast S256x1024 x0 h0) hb)
          (shapeCast S1024x3072 x1 h1) (constant S256x3072 .f32 0x00000000#32))
        (broadcastTo S256x3072 (shapeCast S1x3072 x2 h2) hbr) (ix2 p o)
      = blockProj x0 x1 x2 p o := by
  rw [addf_apply, projDot_apply, Cert.HeadOps.broadcastTo_1b_ab_apply, shapeCast_self, shapeCast_self, shapeCast_self]
  rfl

/-- The queries: columns 0 … 1023 scaled by 1/8, split into heads × lanes. -/
private theorem qHead_apply (v9 : FVec Ideal S256x3072 .f32) (hs : S256x3072.Slices ![0, 0] S256x1024)
    (hc : S256x1024.ShapeCasts S256x16x64) (p : Fin 256) (h : Fin 16) (d : Fin 64) :
    shapeCast S256x16x64 (mulf (extractStridedSlice S256x1024 ![0, 0] v9 hs)
        (broadcast S256x1024 (Scalar.ofBits (F := Ideal) .f32 0x3E000000#32))) hc (ix3 p h d)
      = v9 (ix2 p (Attn.qCol h d)) * Ideal.ofBits .f32 0x3E000000#32 := by
  rw [Cert.HeadOps.shapeCast_split_apply _ hc p h d ⟨h.val * 64 + d.val, by have := h.isLt; have := d.isLt; omega⟩ rfl,
    mulf_apply, broadcast_apply,
    Cert.HeadOps.sliceCols_apply v9 0 hs p _ (Attn.qCol h d) (Nat.zero_add _).symm]
  rfl

/-- The keys: columns 1024 … 2047 split into heads × lanes. -/
private theorem kHead_apply (v9 : FVec Ideal S256x3072 .f32) (hs : S256x3072.Slices ![0, 1024] S256x1024)
    (hc : S256x1024.ShapeCasts S256x16x64) (p : Fin 256) (h : Fin 16) (d : Fin 64) :
    shapeCast S256x16x64 (extractStridedSlice S256x1024 ![0, 1024] v9 hs) hc (ix3 p h d) = v9 (ix2 p (Attn.kCol h d)) := by
  rw [Cert.HeadOps.shapeCast_split_apply _ hc p h d ⟨h.val * 64 + d.val, by have := h.isLt; have := d.isLt; omega⟩ rfl,
    Cert.HeadOps.sliceCols_apply v9 1024 hs p _ (Attn.kCol h d) rfl]

/-- The values: columns 2048 … 3071 split into heads × lanes. -/
private theorem vHead_apply (v9 : FVec Ideal S256x3072 .f32) (hs : S256x3072.Slices ![0, 2048] S256x1024)
    (hc : S256x1024.ShapeCasts S256x16x64) (p : Fin 256) (h : Fin 16) (e : Fin 64) :
    shapeCast S256x16x64 (extractStridedSlice S256x1024 ![0, 2048] v9 hs) hc (ix3 p h e) = v9 (ix2 p (Attn.vCol h e)) := by
  rw [Cert.HeadOps.shapeCast_split_apply _ hc p h e ⟨h.val * 64 + e.val, by have := h.isLt; have := e.isLt; omega⟩ rfl,
    Cert.HeadOps.sliceCols_apply v9 2048 hs p _ (Attn.vCol h e) rfl]

/-- The largest key of a row and lane: the maximum across the heads from −∞, once more against −∞. -/
private theorem max_stage (v16 : FVec Ideal S256x16x64 .f32) (hr : S256x16x64.Reduces [1] S256x64) (p : Fin 256) (d : Fin 64) :
    maximumf (broadcast S256x64 (Scalar.ofBits (F := Ideal) .f32 0xFF800000#32))
        (multiReduction .maximumf [1] S256x64 v16 0xFF800000#32 hr (.inl rfl) rfl) (ix2 p d)
      = max (Ideal.ofBits .f32 0xFF800000#32)
          ((Finset.univ : Finset (Fin 16)).fold max (Ideal.ofBits .f32 0xFF800000#32) (fun h => v16 (ix3 p h d))) := by
  rw [maximumf_apply, broadcast_apply]
  exact congrArg (max _) (Cert.HeadOps.headMax_apply v16 _ hr _ _ p d)

/-- The exponentials: each key less its lane's largest (given a unit head axis and broadcast along the heads). -/
private theorem exp_stage (v16 : FVec Ideal S256x16x64 .f32) (v20 : FVec Ideal S256x64 .f32) (hc : S256x64.ShapeCasts S256x1x64)
    (hb : S256x1x64.Broadcasts S256x16x64) (p : Fin 256) (h : Fin 16) (d : Fin 64) :
    exp (subf v16 (broadcastTo S256x16x64 (shapeCast S256x1x64 v20 hc) hb)) (ix3 p h d)
      = Ideal.exp (v16 (ix3 p h d) - v20 (ix2 p d)) := by
  show FloatOps.exp (subf v16 (broadcastTo S256x16x64 (shapeCast S256x1x64 v20 hc) hb) (ix3 p h d)) = _
  rw [Ideal.exp_def, subf_apply, Cert.HeadOps.headSplat_apply]

/-- The softmax across the heads: each exponential over the sum, across the heads, of its row's and lane's exponentials. -/
private theorem soft_stage (v24 : FVec Ideal S256x16x64 .f32) (hr : S256x16x64.Reduces [1] S256x64) (hc : S256x64.ShapeCasts S256x1x64)
    (hb : S256x1x64.Broadcasts S256x16x64) (p : Fin 256) (h : Fin 16) (d : Fin 64) :
    divf v24 (broadcastTo S256x16x64 (shapeCast S256x1x64
        (multiReduction .add [1] S256x64 v24 0x00000000#32 hr (.inl rfl) rfl) hc) hb) (ix3 p h d)
      = Ideal.div (v24 (ix3 p h d)) (∑ k : Fin 16, v24 (ix3 p k d)) := by
  rw [divf_apply, Cert.HeadOps.headSplat_apply]
  exact congrArg (Ideal.div _) (Cert.HeadOps.headSum_apply v24 _ hr _ _ p d)

/-- The context matrix of a row: normalised keys against values (both narrowed), summed over the heads. -/
private theorem ctx_stage (v28 v17 : FVec Ideal S256x16x64 .f32) (hb : FTy.bits .bf16 < FTy.bits .f32) (p : Fin 256) (d e : Fin 64) :
    matmul dot_S256x16x64_S256x16x64_S256x64x64_1_1_2_2_0_0 none (truncf .bf16 v28 hb) (truncf .bf16 v17 hb)
        (constant S256x64x64 .f32 0x00000000#32) (ix3 p d e)
      = ∑ k : Fin 16, v28 (ix3 p k d) * v17 (ix3 p k e) :=
  ctxDot_apply _ _ p d e

/-- The output of a row: queries against the context matrix (both narrowed), summed over the lanes. -/
private theorem out_stage (v15 : FVec Ideal S256x16x64 .f32) (v31 : FVec Ideal S256x64x64 .f32) (hb : FTy.bits .bf16 < FTy.bits .f32)
    (p : Fin 256) (h : Fin 16) (e : Fin 64) :
    matmul dot_S256x16x64_S256x64x64_S256x16x64_2_1_1_2_0_0 none (truncf .bf16 v15 hb) (truncf .bf16 v31 hb)
        (constant S256x16x64 .f32 0x00000000#32) (ix3 p h e)
      = ∑ k : Fin 64, v15 (ix3 p h k) * v31 (ix3 p k e) :=
  outDot_apply _ _ p h e

/-- What the body stores, at row `p` and column `col = h · 64 + e`. -/
theorem pay0_apply (x0 : Vec Ideal S256x1024 .f32) (x1 : Vec Ideal S1024x3072 .bf16) (x2 : Vec Ideal S1x3072 .f32)
    (p : Fin 256) (h : Fin 16) (e : Fin 64) (col : Fin 1024) (hcol : col.val = h.val * 64 + e.val) :
    k0_pay1 (F := Ideal) x0 x1 x2 (ix2 p col) = Attn.tok (blockProj x0 x1 x2 p) h e := by
  unfold k0_pay1
  -- column h · 64 + e of the stored rows is entry (p, h, e) of the output: a sum over the lanes d
  rw [Cert.HeadOps.shapeCast_merge_apply _ _ p h e col hcol, out_stage]
  unfold Attn.tok
  refine Finset.sum_congr rfl fun d _ => ?_
  -- the scaled query at (h, d), times the context matrix at (d, e): a sum over the heads k
  rw [qHead_apply, proj_stage, ctx_stage]
  congr 1
  unfold Attn.ctx
  refine Finset.sum_congr rfl fun k _ => ?_
  -- the value at (k, e), times the softmax of the keys at (k, d)
  rw [vHead_apply, proj_stage, soft_stage]
  congr 1
  unfold Attn.keySoft
  -- each exponential is of a key less the largest key of lane d, itself a fold of max over the keys of that lane
  simp only [exp_stage, kHead_apply, proj_stage]
  rw [max_stage]
  simp only [kHead_apply, proj_stage]
  rfl

end Cert.KernelIdeal.Hand

end
-- ==== Proof.Region0.lean ====
/-
  The array the first kernel region leaves, at the ideal instance. The region visits 128 points; point `t` reads rows
  `256 t … 256 t + 255` of the input (read as 32768 rows), the whole transposed weight matrix and the bias row, and writes
  rows `256 t … 256 t + 255` of its output. Row `r` of the flat input is token (r / 4096, r mod 4096), so what lands at row
  `r`, column `h · 64 + e` is that token's output at head `h`, lane `e`; the 128 blocks tile the output array.
-/
import proofs.«169469_j10608569221191_1_alg».proof.Proof.Gen.KernelIdeal.Frame
import proofs.«169469_j10608569221191_1_alg».proof.Proof.Spec
import proofs.«169469_j10608569221191_1_alg».proof.Proof.HostSide
import proofs.«169469_j10608569221191_1_alg».proof.Proof.Body0
import Idealize.ShloMosaic.Lib.Pipeline.Value

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What the body leaves in the output block -/

theorem zeroOff : (![0, 0] : Fin 2 → Nat) = fun _ => 0 := funext fun a => by fin_cases a <;> rfl

/-- The body's one store fills the whole output block, so the block after the body is the stored value. -/
theorem out0_eq (x0 : Vec Ideal S256x1024 .f32) (x1 : Vec Ideal S1024x3072 .bf16) (x2 : Vec Ideal S1x3072 .f32) :
    out0_3 (F := Ideal) x0 x1 x2 = k0_pay1 (F := Ideal) x0 x1 x2 := by
  unfold out0_3
  rw [View.canon_unit_zero zeroOff]
  simp only [View.ld_unit_zero (S := S256x1024) zeroOff, View.ld_unit_zero (S := S1024x3072) zeroOff,
    View.ld_unit_zero (S := S1x3072) zeroOff]

/-! ## Where each window's block sits at a point -/

/-- The block indices over the 128 points: the row windows (input and output) are at block row `t`, the weight and
    bias windows never move. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b))

/-- The row window's block at point `t` is rows `256 t … 256 t + 255` of its array. -/
theorem rowBlock_apply (c : Dev nD) (t : Fin cfg0.N) (y : S256x1024.Idx) (k : S32768x1024.Idx)
    (hk0 : (k 0).val = t.val * 256 + (y 0).val) (hk1 : (k 1).val = (y 1).val) :
    (iblk0 V c 0 t : Vec Ideal S256x1024 .f32) y = (V c main_v0 : S32768x1024.Idx → Elt Ideal .f32) k := by
  obtain ⟨e0, e1, -⟩ := idx0 t
  unfold iblk0
  rw [View.read_apply]
  show V c main_v0 _ = V c main_v0 _
  congr 1
  funext a
  apply Fin.ext
  match a with
  | ⟨0, _⟩ => show win0_0.index t 0 * 256 + 1 * (y 0).val = (k 0).val; rw [e0, hk0]; omega
  | ⟨1, _⟩ => show win0_0.index t 1 * 1024 + 1 * (y 1).val = (k 1).val; rw [e1, hk1]; omega

/-- The weight window's block at any point is its whole array. -/
theorem weightBlock_apply (c : Dev nD) (t : Fin cfg0.N) (y : S1024x3072.Idx) :
    (iblk0 V c 1 t : Vec Ideal S1024x3072 .bf16) y = (V c main_v2 : S1024x3072.Idx → Elt Ideal .bf16) y := by
  obtain ⟨-, -, e0, e1, -⟩ := idx0 t
  unfold iblk0
  rw [View.read_apply]
  show V c main_v2 _ = V c main_v2 _
  congr 1
  funext a
  apply Fin.ext
  match a with
  | ⟨0, _⟩ => show win0_1.index t 0 * 1024 + 1 * (y 0).val = (y 0).val; rw [e0]; omega
  | ⟨1, _⟩ => show win0_1.index t 1 * 3072 + 1 * (y 1).val = (y 1).val; rw [e1]; omega

/-- The bias window's block at any point is its whole array. -/
theorem biasBlock_apply (c : Dev nD) (t : Fin cfg0.N) (y : S1x3072.Idx) :
    (iblk0 V c 2 t : Vec Ideal S1x3072 .f32) y = (V c main_v3 : S1x3072.Idx → Elt Ideal .f32) y := by
  obtain ⟨-, -, -, -, e0, e1, -⟩ := idx0 t
  unfold iblk0
  rw [View.read_apply]
  show V c main_v3 _ = V c main_v3 _
  congr 1
  funext a
  apply Fin.ext
  match a with
  | ⟨0, _⟩ => show win0_2.index t 0 * 1 + 1 * (y 0).val = (y 0).val; rw [e0]; omega
  | ⟨1, _⟩ => show win0_2.index t 1 * 3072 + 1 * (y 1).val = (y 1).val; rw [e1]; omega

end Blocks

/-! ## The blocks as the argument arrays: what the host operations before the region put in each window's array -/

/-- Row `p` of the input block at point `t` is token (b, n)'s row of the input, where `b · 4096 + n = 256 t + p`. -/
theorem rowBlock_arg (c : Dev nD) (t : Fin cfg0.N) (p : Fin 256) (b : Fin 8) (n : Fin 4096)
    (hbn : b.val * 4096 + n.val = t.val * 256 + p.val) (cc : Fin 1024) :
    (iblk0 (V1 m ρ) c 0 t : Vec Ideal S256x1024 .f32) (ix2 p cc) = argX m c (ix3 b n cc) := by
  have hr : t.val * 256 + p.val < 32768 := by have := b.isLt; have := n.isLt; omega
  rw [rowBlock_apply (V1 m ρ) c t (ix2 p cc) (ix2 ⟨t.val * 256 + p.val, hr⟩ cc) rfl rfl, V1_x]
  refine shapeCast_apply _ _ _ (ix3 b n cc) ?_
  rw [Shape.rowMajor_val_three, Shape.rowMajor_val_two]
  show (b.val * 4096 + n.val) * 1024 + cc.val = (t.val * 256 + p.val) * 1024 + cc.val
  rw [hbn]

/-- The weight block holds the first weight matrix transposed. -/
theorem weightBlock_arg (c : Dev nD) (t : Fin cfg0.N) (cc : Fin 1024) (o : Fin 3072) :
    (iblk0 (V1 m ρ) c 1 t : Vec Ideal S1024x3072 .bf16) (ix2 cc o) = argWq m c (ix2 o cc) := by
  rw [weightBlock_apply (V1 m ρ) c t (ix2 cc o), V1_wq, truncf_apply]
  refine transpose_apply _ _ _ _ (ix2 o cc) fun a => ?_
  match a with
  | ⟨0, _⟩ => rfl
  | ⟨1, _⟩ => rfl

/-- The bias block holds the first bias as its one row. -/
theorem biasBlock_arg (c : Dev nD) (t : Fin cfg0.N) (o : Fin 3072) :
    (iblk0 (V1 m ρ) c 2 t : Vec Ideal S1x3072 .f32) (ix2 (0 : Fin 1) o) = argBq m c (ix1 o) := by
  rw [biasBlock_apply (V1 m ρ) c t (ix2 (0 : Fin 1) o), V1_bq]
  refine shapeCast_apply _ _ _ (ix1 o) ?_
  rw [Shape.rowMajor_val_one, Shape.rowMajor_val_two]
  show o.val = 0 * 3072 + o.val
  omega

/-- A row's projected values from three blocks that hold the token's input row, the transposed weights and the bias row
    are the token's projected values from the argument arrays. -/
theorem blockProj_of_reads (x0 : Vec Ideal S256x1024 .f32) (x1 : Vec Ideal S1024x3072 .bf16) (x2 : Vec Ideal S1x3072 .f32)
    (p : Fin 256) (X : FVec Ideal Attn.SX .f32) (Wq : FVec Ideal Attn.SWq .f32) (Bq : FVec Ideal Attn.SBq .f32)
    (b : Fin 8) (n : Fin 4096)
    (hx : ∀ cc : Fin 1024, x0 (ix2 p cc) = X (ix3 b n cc))
    (hw : ∀ (cc : Fin 1024) (o : Fin 3072), x1 (ix2 cc o) = Wq (ix2 o cc))
    (hb : ∀ o : Fin 3072, x2 (ix2 (0 : Fin 1) o) = Bq (ix1 o)) :
    blockProj x0 x1 x2 p = Attn.projAt X Wq Bq b n := by
  funext o
  unfold blockProj Attn.projAt Attn.proj
  simp only [hx, hw, hb]

/-- Row `r`, column `h · 64 + e` of the flat array of head outputs is token (r / 4096, r mod 4096)'s output at head `h`,
    lane `e`. -/
theorem flatHeads_apply (X : FVec Ideal Attn.SX .f32) (Wq : FVec Ideal Attn.SWq .f32) (Bq : FVec Ideal Attn.SBq .f32)
    (k : Attn.SFlat.Idx) (b : Fin 8) (n : Fin 4096) (h : Fin 16) (e : Fin 64)
    (hr : (k 0).val = b.val * 4096 + n.val) (hc : (k 1).val = h.val * 64 + e.val) :
    Attn.flatHeads X Wq Bq k = Attn.tok (Attn.projAt X Wq Bq b n) h e := by
  unfold Attn.flatHeads
  rw [shapeCast_apply _ _ k (ix4 b n h e) (by
    rw [Shape.rowMajor_val_four, Shape.rowMajor_val_two]
    show ((b.val * 4096 + n.val) * 16 + h.val) * 64 + e.val = (k 0).val * 1024 + (k 1).val
    rw [hr, hc]; omega)]
  rfl

/-! ## What a point writes back -/

/-- Point `t` writes back block `t` of the flat array of head outputs. -/
theorem flushed0_eq (c : Dev nD) (t : Fin cfg0.N) :
    (dat0 (V1 m ρ) c).flushed 3 t
      = ((cfg0.win 3).blk t).view.read (Elt Ideal) (Attn.flatHeads (argX m c) (argWq m c) (argBq m c)) := by
  show (cfg0.win 3).cut (grid0.coords t) ((dat0 (V1 m ρ) c).after 3 t) = _
  rw [after0_3, out0_eq]
  obtain ⟨-, -, -, -, -, -, e0, e1⟩ := idx0 t
  funext y
  obtain ⟨p, col, rfl⟩ : ∃ (p : Fin 256) (col : Fin 1024), y = ix2 p col := ⟨y 0, y 1, eq_ix2 y⟩
  have ht : t.val < 128 := t.isLt
  have hp := p.isLt
  have hcol := col.isLt
  have hr : t.val * 256 + p.val < 32768 := by omega
  show k0_pay1 (F := Ideal) (iblk0 (V1 m ρ) c 0 t) (iblk0 (V1 m ρ) c 1 t) (iblk0 (V1 m ρ) c 2 t) (ix2 p col)
    = Attn.flatHeads (argX m c) (argWq m c) (argBq m c) (((cfg0.win 3).blk t).view.emb (ix2 p col))
  refine (pay0_apply (iblk0 (V1 m ρ) c 0 t) (iblk0 (V1 m ρ) c 1 t) (iblk0 (V1 m ρ) c 2 t) p
    ⟨col.val / 64, by omega⟩ ⟨col.val % 64, by omega⟩ col ?_).trans ?_
  · show col.val = col.val / 64 * 64 + col.val % 64
    omega
  rw [blockProj_of_reads (iblk0 (V1 m ρ) c 0 t) (iblk0 (V1 m ρ) c 1 t) (iblk0 (V1 m ρ) c 2 t) p
    (argX m c) (argWq m c) (argBq m c) ⟨(t.val * 256 + p.val) / 4096, by omega⟩ ⟨(t.val * 256 + p.val) % 4096, by omega⟩
    (rowBlock_arg m ρ c t p _ _ (by show (t.val * 256 + p.val) / 4096 * 4096 + (t.val * 256 + p.val) % 4096 = t.val * 256 + p.val; omega))
    (weightBlock_arg m ρ c t) (biasBlock_arg m ρ c t)]
  refine (flatHeads_apply _ _ _ _ _ _ _ _ ?_ ?_).symm
  · show win0_3.index t (0 : Fin 2) * 256 + 1 * p.val = (t.val * 256 + p.val) / 4096 * 4096 + (t.val * 256 + p.val) % 4096
    rw [e0]; omega
  · show win0_3.index t (1 : Fin 2) * 1024 + 1 * col.val = col.val / 64 * 64 + col.val % 64
    rw [e1]; omega

/-! ## The blocks tile the output array -/

/-- An index of the output array is in point `t`'s block iff each coordinate is in the block's range on its axis. -/
theorem mem_blk0 (t : Fin cfg0.N) (i : S32768x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v7).slice (win0_3.rect t)).set ↔ _
  rw [View.set_slice_whole, Rect.mem_set_unit]
  exact Iff.rfl

/-- Row `r` of the output array is in the block of point `r / 256`. -/
theorem cover0 (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have ht : (i 0).val / 256 < 128 := by omega
  refine ⟨⟨(i 0).val / 256, ht⟩, flush0_3 _, ?_⟩
  obtain ⟨-, -, -, -, -, -, e0, e1⟩ := idx0 ⟨(i 0).val / 256, ht⟩
  rw [mem_blk0]
  intro a
  match a with
  | ⟨0, _⟩ =>
    show win0_3.index _ (0 : Fin 2) * 256 ≤ (i 0).val ∧ (i 0).val < win0_3.index _ (0 : Fin 2) * 256 + 256
    rw [e0]; show (i 0).val / 256 * 256 ≤ (i 0).val ∧ (i 0).val < (i 0).val / 256 * 256 + 256; omega
  | ⟨1, _⟩ =>
    show win0_3.index _ (1 : Fin 2) * 1024 ≤ (i 1).val ∧ (i 1).val < win0_3.index _ (1 : Fin 2) * 1024 + 1024
    rw [e1]; omega

/-- The first region's output array after the run: every token's head outputs, as 32768 rows of 1024. -/
theorem arr0_eq (c : Dev nD) : arr0 m ρ c = Attn.flatHeads (argX m c) (argWq m c) (argBq m c) :=
  (dat0 (V1 m ρ) c).arrAt_eq_of_cover 3 (Attn.flatHeads (argX m c) (argWq m c) (argBq m c))
    (fun t _ => flushed0_eq m ρ c t) cover0

end Cert.KernelIdeal.Hand

end
-- ==== Proof.Body1.lean ====
/-
  The second kernel body at an index, at the ideal instance: on a block of 1024 rows it multiplies each row by the transposed
  second weight matrix and adds the bias row, so row `p`, column `o` of what it stores is the sum over `c` of the row's
  entry `c` times the weight at (c, o), plus the bias at `o`.
-/
import proofs.«169469_j10608569221191_1_alg».proof.Proof.Gen.KernelIdeal.Skeleton
import proofs.«169469_j10608569221191_1_alg».proof.Proof.LibHeadOps
import proofs.«169469_j10608569221191_1_alg».proof.Proof.BodyDots

noncomputable section

open scoped BigOperators

namespace Cert.KernelIdeal.Hand

open Idealize.ShloMosaic Idealize.ShloMosaic.TcCoe Idealize.ShloMosaic.ValueIdx
open Cert.KernelIdeal Cert.KernelIdeal.Gen

/-- What the body stores, at row `p` and column `o`. -/
theorem pay1_apply (x0 : Vec Ideal S1024x1024 .f32) (x1 : Vec Ideal S1024x1024 .bf16) (x2 : Vec Ideal S1x1024 .f32)
    (p : Fin 1024) (o : Fin 1024) :
    k1_pay1 (F := Ideal) x0 x1 x2 (ix2 p o) = (∑ c : Fin 1024, x0 (ix2 p c) * x1 (ix2 c o)) + x2 (ix2 (0 : Fin 1) o) := by
  unfold k1_pay1
  rw [addf_apply, lastDot_apply, Cert.HeadOps.broadcastTo_1b_ab_apply]
  rw [shapeCast_self, shapeCast_self, shapeCast_self]
  rfl

end Cert.KernelIdeal.Hand

end
-- ==== Proof.Region1.lean ====
/-
  The array the second kernel region leaves, at the ideal instance. The region visits 32 points; point `t` reads rows
  `1024 t … 1024 t + 1023` of its row operand, the whole transposed second weight matrix and the bias row, and writes the
  same rows of its output: row `r`, column `o` is the sum over `c` of the operand's (r, c) times the weight at (o, c), plus
  the bias at `o`. The 32 blocks tile the output array.
-/
import proofs.«169469_j10608569221191_1_alg».proof.Proof.Gen.KernelIdeal.Frame
import proofs.«169469_j10608569221191_1_alg».proof.Proof.Spec
import proofs.«169469_j10608569221191_1_alg».proof.Proof.HostSide
import proofs.«169469_j10608569221191_1_alg».proof.Proof.Body1
import Idealize.ShloMosaic.Lib.Pipeline.Value

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## What the body leaves in the output block -/

/-- The zero offset of a whole-block access. -/
theorem zeroOff1 : (![0, 0] : Fin 2 → Nat) = fun _ => 0 := funext fun a => by
  match a with
  | ⟨0, _⟩ => rfl
  | ⟨1, _⟩ => rfl

/-- The body's one store covers its whole output block and its loads read whole blocks, so what it leaves there is its
    payload of the three input blocks. -/
theorem lastStored_eq (x0 : Vec Ideal S1024x1024 .f32) (x1 : Vec Ideal S1024x1024 .bf16) (x2 : Vec Ideal S1x1024 .f32) :
    out1_3 (F := Ideal) x0 x1 x2 = k1_pay1 (F := Ideal) x0 x1 x2 := by
  unfold out1_3
  rw [View.canon_unit_zero zeroOff1]
  simp only [View.ld_unit_zero (S := S1024x1024) zeroOff1, View.ld_unit_zero (S := S1x1024) zeroOff1]

/-- Row `p` of the payload is the last projection of row `r` of an array `s`, when row `p` of the first block is row `r`
    of `s`, the second block is the weight matrix transposed and the third block's one row is the bias. -/
theorem lastPay_eq_rowOut (x0 : Vec Ideal S1024x1024 .f32) (x1 : Vec Ideal S1024x1024 .bf16) (x2 : Vec Ideal S1x1024 .f32)
    (s : S32768x1024.Idx → Elt Ideal .f32) (wp : S1024x1024.Idx → Elt Ideal .f32) (bp : S1024.Idx → Elt Ideal .f32)
    (p o : Fin 1024) (r : Fin 32768)
    (h0 : ∀ k : Fin 1024, x0 (ix2 p k) = s (ix2 r k))
    (h1 : ∀ k : Fin 1024, x1 (ix2 k o) = wp (ix2 o k))
    (h2 : x2 (ix2 (0 : Fin 1) o) = bp (ix1 o)) :
    k1_pay1 (F := Ideal) x0 x1 x2 (ix2 p o) = Attn.flatOut s wp bp (ix2 r o) := by
  rw [pay1_apply, Attn.flatOut_apply]
  unfold Attn.rowOut
  rw [h2]
  congr 1
  exact Finset.sum_congr rfl fun k _ => by rw [h0 k, h1 k]

/-! ## The host's preparation of the weight and the bias, read at an index -/

/-- The transposed (and narrowed) weight matrix at (k, o) is the weight at (o, k). -/
theorem lastWeight_apply (wp : S1024x1024.Idx → Elt Ideal .f32) (k o : Fin 1024) :
    (truncf .bf16 (transpose S1024x1024 [1, 0] wp transposes_S1024x1024_S1024x1024_1_0) bitsLt_bf16_f32 : FVec Ideal S1024x1024 .bf16) (ix2 k o)
      = wp (ix2 o k) := by
  rw [truncf_apply]
  refine transpose_apply [1, 0] wp transposes_S1024x1024_S1024x1024_1_0 (ix2 k o) (ix2 o k) fun b => ?_
  match b with
  | ⟨0, _⟩ => rfl
  | ⟨1, _⟩ => rfl

/-- The bias as one row, at column `o`, is the bias at `o`. -/
theorem lastBias_apply (bp : S1024.Idx → Elt Ideal .f32) (o : Fin 1024) :
    (shapeCast S1x1024 bp shapeCasts_S1024_S1x1024 : S1x1024.Idx → Elt Ideal .f32) (ix2 (0 : Fin 1) o) = bp (ix1 o) := by
  refine shapeCast_apply bp shapeCasts_S1024_S1x1024 (ix2 (0 : Fin 1) o) (ix1 o) ?_
  rw [Shape.rowMajor_val_one, Shape.rowMajor_val_two]
  show o.val = (0 : Fin 1).val * 1024 + o.val
  simp

/-! ## The index maps over the grid -/

/-- Decided once over the 32 points: the row operand's and the output's block index is (t, 0), the weight's and the
    bias's is (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The input blocks as the region finds its arrays -/

section Blocks
-- the TensorCore's buffer contents when the region is entered, as a parameter
variable (V : (c : Dev nD) → (b : Ref sig .tc) → Buf (Elt Ideal) ((c : Thread nD τ).loc b))

/-- Row `p` of the row operand's block at point `t` is row `1024 t + p` of the array. -/
theorem lastRowBlock_apply (c : Dev nD) (t : Fin cfg1.N) (p k : Fin 1024) (r : Fin 32768) (hr : r.val = t.val * 1024 + p.val) :
    (iblk1 V c 0 t : Vec Ideal S1024x1024 .f32) (ix2 p k) = (V c main_v11 : S32768x1024.Idx → Elt Ideal .f32) (ix2 r k) := by
  obtain ⟨e0, e1, -⟩ := idx1 t
  unfold iblk1
  rw [View.read_apply]
  show V c main_v11 _ = V c main_v11 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * k.val = k.val; rw [e1]; omega

/-- The weight operand's block at every point is its whole array. -/
theorem lastWeightBlock_apply (c : Dev nD) (t : Fin cfg1.N) (k o : Fin 1024) :
    (iblk1 V c 1 t : Vec Ideal S1024x1024 .bf16) (ix2 k o) = (V c main_v5 : S1024x1024.Idx → Elt Ideal .bf16) (ix2 k o) := by
  obtain ⟨-, -, e0, e1, -⟩ := idx1 t
  unfold iblk1
  rw [View.read_apply]
  show V c main_v5 _ = V c main_v5 _
  congr 1
  funext a
  apply Fin.ext
  match a with
  | ⟨0, _⟩ => show win1_1.index t (0 : Fin 2) * 1024 + 1 * k.val = k.val; rw [e0]; omega
  | ⟨1, _⟩ => show win1_1.index t (1 : Fin 2) * 1024 + 1 * o.val = o.val; rw [e1]; omega

/-- The bias operand's block at every point is its whole one-row array. -/
theorem lastBiasBlock_apply (c : Dev nD) (t : Fin cfg1.N) (o : Fin 1024) :
    (iblk1 V c 2 t : Vec Ideal S1x1024 .f32) (ix2 (0 : Fin 1) o) = (V c main_v6 : S1x1024.Idx → Elt Ideal .f32) (ix2 (0 : Fin 1) o) := by
  obtain ⟨-, -, -, -, e0, e1, -⟩ := idx1 t
  unfold iblk1
  rw [View.read_apply]
  show V c main_v6 _ = V c main_v6 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 1024 + 1 * o.val = o.val; rw [e1]; omega

/-! ## What a point writes back, and the array after the run -/

/-- What point `t` writes back is block `t` of the last projection of the row operand, when the region finds the
    transposed weight matrix and the bias row in its other two operands. -/
theorem flushed1_eq (c : Dev nD) (wp : S1024x1024.Idx → Elt Ideal .f32) (bp : S1024.Idx → Elt Ideal .f32)
    (hw : (V c main_v5 : S1024x1024.Idx → Elt Ideal .bf16)
      = truncf (F := Ideal) .bf16 (transpose S1024x1024 [1, 0] wp transposes_S1024x1024_S1024x1024_1_0) bitsLt_bf16_f32)
    (hb : (V c main_v6 : S1x1024.Idx → Elt Ideal .f32) = shapeCast S1x1024 bp shapeCasts_S1024_S1x1024)
    (t : Fin cfg1.N) :
    (dat1 V c).flushed 3 t
      = ((cfg1.win 3).blk t).view.read (Elt Ideal) (Attn.flatOut (V c main_v11 : S32768x1024.Idx → Elt Ideal .f32) wp bp) := by
  show (cfg1.win 3).cut (grid1.coords t) ((dat1 V c).after 3 t) = _
  rw [after1_3, lastStored_eq]
  funext y
  obtain ⟨p, o, rfl⟩ : ∃ (p : Fin 1024) (o : Fin 1024), y = ix2 p o := ⟨y 0, y 1, eq_ix2 y⟩
  obtain ⟨-, -, -, -, -, -, e0, e1⟩ := idx1 t
  have ht : t.val < 32 := lt_of_lt_of_eq t.isLt N_1
  have hp : p.val < 1024 := p.isLt
  have hr : t.val * 1024 + p.val < 32768 := by omega
  have hemb : ((cfg1.win 3).blk t).view.emb (ix2 p o) = (ix2 (⟨t.val * 1024 + p.val, hr⟩ : Fin 32768) o : S32768x1024.Idx) := by
    funext a
    apply Fin.ext
    match a with
    | ⟨0, _⟩ => show win1_3.index t (0 : Fin 2) * 1024 + 1 * p.val = t.val * 1024 + p.val; rw [e0]; omega
    | ⟨1, _⟩ => show win1_3.index t (1 : Fin 2) * 1024 + 1 * o.val = o.val; rw [e1]; omega
  rw [View.read_apply]
  show k1_pay1 (F := Ideal) (iblk1 V c 0 t) (iblk1 V c 1 t) (iblk1 V c 2 t) (ix2 p o)
    = Attn.flatOut (V c main_v11 : S32768x1024.Idx → Elt Ideal .f32) wp bp (((cfg1.win 3).blk t).view.emb (ix2 p o))
  rw [hemb]
  refine lastPay_eq_rowOut (iblk1 V c 0 t) (iblk1 V c 1 t) (iblk1 V c 2 t) (V c main_v11) wp bp p o ⟨t.val * 1024 + p.val, hr⟩
    (fun k => lastRowBlock_apply V c t p k ⟨t.val * 1024 + p.val, hr⟩ rfl) (fun k => ?_) ?_
  · rw [lastWeightBlock_apply V c t k o, hw]
    exact lastWeight_apply wp k o
  · rw [lastBiasBlock_apply V c t o, hb]
    exact lastBias_apply bp o

/-- An index of the output array is in point `t`'s block iff each coordinate is in the block's range on its axis. -/
theorem mem_blk1 (t : Fin cfg1.N) (i : S32768x1024.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v12).slice (win1_3.rect t)).set ↔ _
  rw [View.set_slice_whole, Rect.mem_set_unit]
  exact Iff.rfl

/-- Row `r` of the output array lies in the block of point `r / 1024`: the 32 blocks of 1024 rows tile the array. -/
theorem cover1 (i : S32768x1024.Idx) :
    ∃ t : Fin cfg1.N, (cfg1.win 3).flush t = true ∧ i ∈ ((cfg1.win 3).blk t).view.set := by
  have hi0 : (i 0).val < 32768 := (i 0).isLt
  have hi1 : (i 1).val < 1024 := (i 1).isLt
  have hq : (i 0).val / 1024 < cfg1.N := lt_of_lt_of_eq (by omega : (i 0).val / 1024 < 32) N_1.symm
  obtain ⟨-, -, -, -, -, -, e0, e1⟩ := idx1 ⟨(i 0).val / 1024, hq⟩
  refine ⟨⟨(i 0).val / 1024, hq⟩, flush1_3 _, ?_⟩
  rw [mem_blk1]
  intro a
  match a with
  | ⟨0, _⟩ =>
    show win1_3.index ⟨(i 0).val / 1024, hq⟩ (0 : Fin 2) * 1024 ≤ (i 0).val
      ∧ (i 0).val < win1_3.index ⟨(i 0).val / 1024, hq⟩ (0 : Fin 2) * 1024 + 1024
    rw [e0]
    show (i 0).val / 1024 * 1024 ≤ (i 0).val ∧ (i 0).val < (i 0).val / 1024 * 1024 + 1024
    omega
  | ⟨1, _⟩ =>
    show win1_3.index ⟨(i 0).val / 1024, hq⟩ (1 : Fin 2) * 1024 ≤ (i 1).val
      ∧ (i 1).val < win1_3.index ⟨(i 0).val / 1024, hq⟩ (1 : Fin 2) * 1024 + 1024
    rw [e1]
    omega

/-- So the output array ends holding the last projection of every row of the row operand. -/
theorem arr1_eq_of (c : Dev nD) (wp : S1024x1024.Idx → Elt Ideal .f32) (bp : S1024.Idx → Elt Ideal .f32)
    (hw : (V c main_v5 : S1024x1024.Idx → Elt Ideal .bf16)
      = truncf (F := Ideal) .bf16 (transpose S1024x1024 [1, 0] wp transposes_S1024x1024_S1024x1024_1_0) bitsLt_bf16_f32)
    (hb : (V c main_v6 : S1x1024.Idx → Elt Ideal .f32) = shapeCast S1x1024 bp shapeCasts_S1024_S1x1024) :
    (dat1 V c).arrAt 3 cfg1.N = Attn.flatOut (V c main_v11 : S32768x1024.Idx → Elt Ideal .f32) wp bp :=
  (dat1 V c).arrAt_eq_of_cover 3 (Attn.flatOut (V c main_v11 : S32768x1024.Idx → Elt Ideal .f32) wp bp)
    (fun t _ => flushed1_eq V c wp bp hw hb t) cover1

end Blocks

variable (m : (ℓ : Loc nD τ sig) → Buf (Elt Ideal) ℓ) (ρ : Dev nD → PrngReg)

/-- The second region's output array after the run: the last projection of every row of its row operand. -/
theorem arr1_eq (c : Dev nD) :
    arr1 m ρ c = Attn.flatOut (V3 m ρ c main_v11 : S32768x1024.Idx → Elt Ideal .f32) (argWp m c) (argBp m c) :=
  arr1_eq_of (V3 m ρ) c (argWp m c) (argBp m c) (V3_wp m ρ c) (V3_bp m ρ c)

end Cert.KernelIdeal.Hand

end
-- ==== Proof.Glue.lean ====
/-
  The kernel program's result at the ideal instance is the specification's. The first region leaves every token's head
  outputs as 32768 rows; read as [8, 4096, 16, 64] that is the specification's `heads` array (reading 32768 × 1024 values
  as [8, 4096, 16, 64] undoes reading that array as 32768 rows). The host operations between the regions apply the
  specification's own re-arrangement and read the result as 32768 rows again; the second region applies the last projection
  row by row; and the result read as [8, 4096, 1024] at (b, n, o) is row `b · 4096 + n`, whose entries are the
  re-arranged array's at (b, n, ·).
-/
import proofs.«169469_j10608569221191_1_alg».proof.Proof.Spec
import proofs.«169469_j10608569221191_1_alg».proof.Proof.HostSide
import proofs.«169469_j10608569221191_1_alg».proof.Proof.Region0
import proofs.«169469_j10608569221191_1_alg».proof.Proof.Region1
import Idealize.ShloMosaic.Lib.Pipeline.Value

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Row `b · 4096 + n` of a [8, 4096, 1024] array read as 32768 rows is its (b, n, ·). -/
theorem rows_apply (s : FVec Ideal Attn.SX .f32) (b : Fin 8) (n : Fin 4096) (c : Fin 1024) (r : Fin 32768)
    (hr : r.val = b.val * 4096 + n.val) :
    shapeCast Attn.SFlat s Attn.hRows (ix2 r c) = s (ix3 b n c) := by
  refine shapeCast_apply s Attn.hRows (ix2 r c) (ix3 b n c) ?_
  rw [Shape.rowMajor_val_three, Shape.rowMajor_val_two]
  show (b.val * 4096 + n.val) * 1024 + c.val = r.val * 1024 + c.val
  rw [hr]

/-- The second region's row operand is the re-arranged head outputs, as 32768 rows. -/
theorem operand_eq (c : Dev nD) :
    (V3 m ρ c main_v11 : S32768x1024.Idx → Elt Ideal .f32)
      = shapeCast Attn.SFlat (Attn.mix (Attn.heads (argX m c) (argWq m c) (argBq m c))) Attn.hRows := by
  rw [V3_s, arr0_eq]
  unfold Attn.flatHeads
  rw [shapeCast_shapeCast]
  rfl

/-- The kernel program's result buffer ends at the specification's result of the argument arrays. -/
theorem result_eq (c : Dev nD) :
    (W5 m ρ c (Proc.devRef .tc main_v13) : S8x4096x1024.Idx → Elt Ideal .f32)
      = Attn.result (argX m c) (argWq m c) (argBq m c) (argWp m c) (argBp m c) := by
  rw [W5_out, arr1_eq, operand_eq]
  funext i
  obtain ⟨b, n, o, rfl⟩ : ∃ (b : Fin 8) (n : Fin 4096) (o : Fin 1024), i = ix3 b n o := ⟨i 0, i 1, i 2, eq_ix3 i⟩
  rw [Attn.result_apply]
  have hr : b.val * 4096 + n.val < 32768 := by have := b.isLt; have := n.isLt; omega
  refine (shapeCast_apply _ shapeCasts_S32768x1024_S8x4096x1024 (ix3 b n o) (ix2 (⟨b.val * 4096 + n.val, hr⟩ : Fin 32768) o) ?_).trans ?_
  · rw [Shape.rowMajor_val_three, Shape.rowMajor_val_two]
    rfl
  · rw [Attn.flatOut_apply]
    unfold Attn.rowOut Attn.outAt
    refine congrArg (· + _) (Finset.sum_congr rfl fun k _ => ?_)
    rw [rows_apply _ b n k ⟨b.val * 4096 + n.val, hr⟩ rfl]

end Cert.KernelIdeal.Hand

end
-- ==== Proof.RefStages.lean ====
/-
  The reference program at the ideal instance computes the specification: its result, read one operation at a time, is
  `Attn.result` of the five argument arrays. The first projection, the split into queries, keys and values, the scaling, the
  softmax across the heads (a maximum from −∞, the exponentials, their sum from zero, the quotient), the two per-token
  products and the last projection are the specification's own steps; the re-arrangement between the two projections is
  the same transpose and reshape, applied to the same array.
-/
import proofs.«169469_j10608569221191_1_alg».proof.Proof.Gen.ReferenceIdeal.Run
import proofs.«169469_j10608569221191_1_alg».proof.Proof.Gen.ReferenceIdeal.Read
import proofs.«169469_j10608569221191_1_alg».proof.Proof.Spec
import Idealize.ShloMosaic.PureOps.Reduce

noncomputable section

open scoped BigOperators

namespace Cert.ReferenceIdeal.Hand

open Idealize.ShloMosaic Idealize.ShloMosaic.TcCoe Idealize.ShloMosaic.ValueIdx
open Cert.ReferenceIdeal Cert.ReferenceIdeal.Gen Cert.ReferenceIdeal.Read

section Stages

variable (x0 : FVec Ideal S8x4096x1024 .f32) (x1 : FVec Ideal S3072x1024 .f32) (x2 : FVec Ideal S3072 .f32)

/-- The first projection with its bias, at token (b, n) and column o. -/
theorem stage_qkv (b : Fin 8) (n : Fin 4096) (o : Fin 3072) :
    val_main_v3 (F := Ideal) x0 x1 x2 (ix3 b n o) = Attn.projAt x0 x1 x2 b n o := by
  rw [val_main_v3_apply, val_main_v0_apply, val_main_v2_apply, val_main_v1_apply]
  have el : ∀ k : Fin 1024, lidx_main_v0 (ix3 b n o) k = ix3 b n k := fun k =>
    funext fun a => by match a with | ⟨0, _⟩ => rfl | ⟨1, _⟩ => rfl | ⟨2, _⟩ => rfl
  have er : ∀ k : Fin 1024, ridx_main_v0 (ix3 b n o) k = ix2 o k := fun k =>
    funext fun a => by match a with | ⟨0, _⟩ => rfl | ⟨1, _⟩ => rfl
  have eb : idx_main_v1 (idx_main_v2 (ix3 b n o)) = ix1 o :=
    funext fun a => by match a with | ⟨0, _⟩ => rfl
  simp only [el, er, eb]
  rfl

/-- Reading [8, 4096, 16, 64] back through the size-one group axis. -/
theorem unflat_idx (b : Fin 8) (n : Fin 4096) (h : Fin 16) (d : Fin 64) :
    idx_main_v6 (ix4 b n h d) = ix5 b n (0 : Fin 1) h d := by
  have hb := b.isLt; have hn := n.isLt; have hh := h.isLt; have hd := d.isLt
  funext a
  refine Fin.ext ?_
  match a with
  | ⟨0, _⟩ => show (((b.val * 4096 + n.val) * 16 + h.val) * 64 + d.val) / 4194304 = b.val; omega
  | ⟨1, _⟩ => show (((b.val * 4096 + n.val) * 16 + h.val) * 64 + d.val) / 1024 % 4096 = n.val; omega
  | ⟨2, _⟩ => rfl
  | ⟨3, _⟩ => show (((b.val * 4096 + n.val) * 16 + h.val) * 64 + d.val) / 64 % 16 = h.val; omega
  | ⟨4, _⟩ => show (((b.val * 4096 + n.val) * 16 + h.val) * 64 + d.val) % 64 = d.val; omega

/-- The 3072 columns of a token read as 3 groups of 16 heads of 64 lanes: group g, head h, lane d is column g · 1024 + h · 64 + d. -/
theorem split_idx (b : Fin 8) (n : Fin 4096) (g : Fin 3) (h : Fin 16) (d : Fin 64) (o : Fin 3072)
    (ho : o.val = g.val * 1024 + (h.val * 64 + d.val)) :
    idx_main_v4 (ix5 b n g h d) = ix3 b n o := by
  have hb := b.isLt; have hn := n.isLt; have hg := g.isLt; have hh := h.isLt; have hd := d.isLt
  funext a
  refine Fin.ext ?_
  match a with
  | ⟨0, _⟩ => show ((((b.val * 4096 + n.val) * 3 + g.val) * 16 + h.val) * 64 + d.val) / 12582912 = b.val; omega
  | ⟨1, _⟩ => show ((((b.val * 4096 + n.val) * 3 + g.val) * 16 + h.val) * 64 + d.val) / 3072 % 4096 = n.val; omega
  | ⟨2, _⟩ => show ((((b.val * 4096 + n.val) * 3 + g.val) * 16 + h.val) * 64 + d.val) % 3072 = o.val; omega

/-- The queries: group 0 of the projected values. -/
theorem stage_q (b : Fin 8) (n : Fin 4096) (h : Fin 16) (d : Fin 64) :
    val_main_v6 (F := Ideal) x0 x1 x2 (ix4 b n h d) = Attn.projAt x0 x1 x2 b n (Attn.qCol h d) := by
  rw [val_main_v6_apply, val_main_v5_apply, val_main_v4_apply, unflat_idx]
  have es : idx_main_v5 (ix5 b n (0 : Fin 1) h d) = ix5 b n (0 : Fin 3) h d :=
    funext fun a => by match a with | ⟨0, _⟩ => rfl | ⟨1, _⟩ => rfl | ⟨2, _⟩ => rfl | ⟨3, _⟩ => rfl | ⟨4, _⟩ => rfl
  rw [es, split_idx b n 0 h d (Attn.qCol h d) (by show h.val * 64 + d.val = 0 * 1024 + (h.val * 64 + d.val); omega)]
  exact stage_qkv x0 x1 x2 b n _

/-- The keys: group 1. -/
theorem stage_k (b : Fin 8) (n : Fin 4096) (h : Fin 16) (d : Fin 64) :
    val_main_v8 (F := Ideal) x0 x1 x2 (ix4 b n h d) = Attn.projAt x0 x1 x2 b n (Attn.kCol h d) := by
  rw [val_main_v8_apply, val_main_v7_apply, val_main_v4_apply]
  have eu : idx_main_v8 (ix4 b n h d) = ix5 b n (0 : Fin 1) h d := unflat_idx b n h d
  have es : idx_main_v7 (ix5 b n (0 : Fin 1) h d) = ix5 b n (1 : Fin 3) h d :=
    funext fun a => by match a with | ⟨0, _⟩ => rfl | ⟨1, _⟩ => rfl | ⟨2, _⟩ => rfl | ⟨3, _⟩ => rfl | ⟨4, _⟩ => rfl
  rw [eu, es, split_idx b n 1 h d (Attn.kCol h d) (by show 1024 + (h.val * 64 + d.val) = 1 * 1024 + (h.val * 64 + d.val); omega)]
  exact stage_qkv x0 x1 x2 b n _

/-- The values: group 2. -/
theorem stage_v (b : Fin 8) (n : Fin 4096) (h : Fin 16) (e : Fin 64) :
    val_main_v10 (F := Ideal) x0 x1 x2 (ix4 b n h e) = Attn.projAt x0 x1 x2 b n (Attn.vCol h e) := by
  rw [val_main_v10_apply, val_main_v9_apply, val_main_v4_apply]
  have eu : idx_main_v10 (ix4 b n h e) = ix5 b n (0 : Fin 1) h e := unflat_idx b n h e
  have es : idx_main_v9 (ix5 b n (0 : Fin 1) h e) = ix5 b n (2 : Fin 3) h e :=
    funext fun a => by match a with | ⟨0, _⟩ => rfl | ⟨1, _⟩ => rfl | ⟨2, _⟩ => rfl | ⟨3, _⟩ => rfl | ⟨4, _⟩ => rfl
  rw [eu, es, split_idx b n 2 h e (Attn.vCol h e) (by show 2048 + (h.val * 64 + e.val) = 2 * 1024 + (h.val * 64 + e.val); omega)]
  exact stage_qkv x0 x1 x2 b n _

/-- The reduced index (b, n, d) with head k put back on the dropped axis is (b, n, k, d). -/
theorem lift_heads (hR : S8x4096x16x64.Reduces [2] S8x4096x64) (b : Fin 8) (n : Fin 4096) (d : Fin 64)
    (k : Fin (S8x4096x16x64.size 2)) : hR.lift (ix3 b n d) k = ix4 b n (⟨k.val, k.isLt⟩ : Fin 16) d := by
  funext c
  refine Fin.ext ?_
  match c with
  | ⟨0, _⟩ => rfl
  | ⟨1, _⟩ => rfl
  | ⟨2, _⟩ => rfl
  | ⟨3, _⟩ => rfl

/-- The reduce with a maximum body over the head axis, from −∞: at (b, n, d) the fold of the maximum over the sixteen keys of lane d. -/
theorem stage_fold (b : Fin 8) (n : Fin 4096) (d : Fin 64) :
    val_main_v13 (F := Ideal) x0 x1 x2 (ix3 b n d)
      = (Finset.univ : Finset (Fin 16)).fold max (Ideal.ofBits .f32 0xFF800000#32)
          (fun h => Attn.projAt x0 x1 x2 b n (Attn.kCol h d)) := by
  have hR : S8x4096x16x64.Reduces [2] S8x4096x64 := by decide
  refine (Host.reduce_eq_fold_single (FloatOps.maximumf (F := Ideal) (φ := .f32)) (val_main_v8 (F := Ideal) x0 x1 x2)
    (val_main_cst_0 (F := Ideal)) reducesTo_S8x4096x16x64_S8x4096x64_d2 hR h_S_ (ix3 b n d)).trans ?_
  have hf : (val_main_v8 (F := Ideal) x0 x1 x2 ∘ hR.lift (ix3 b n d))
      = fun k : Fin 16 => Attn.projAt x0 x1 x2 b n (Attn.kCol k d) := funext fun k => by
    show val_main_v8 (F := Ideal) x0 x1 x2 (hR.lift (ix3 b n d) k) = _
    rw [lift_heads, stage_k]
    rfl
  exact congrArg (fun f => Finset.fold max (Ideal.ofBits .f32 0xFF800000#32) f (Finset.univ : Finset (Fin 16))) hf

/-- The largest key over the heads: that fold, then once more against −∞. -/
theorem stage_max (b : Fin 8) (n : Fin 4096) (d : Fin 64) :
    val_main_v15 (F := Ideal) x0 x1 x2 (ix3 b n d) = Attn.keyMax (Attn.projAt x0 x1 x2 b n) d := by
  rw [val_main_v15_apply, val_main_v14_apply, val_main_cst_1_apply, stage_fold]
  rfl

/-- The exponential of a key less the largest key of its lane. -/
theorem stage_exp (b : Fin 8) (n : Fin 4096) (h : Fin 16) (d : Fin 64) :
    val_main_v19 (F := Ideal) x0 x1 x2 (ix4 b n h d) = Attn.keyExp (Attn.projAt x0 x1 x2 b n) h d := by
  rw [val_main_v19_apply, val_main_v18_apply, val_main_v17_apply, val_main_v16_apply]
  have e : idx_main_v16 (idx_main_v17 (ix4 b n h d)) = ix3 b n d :=
    funext fun a => by match a with | ⟨0, _⟩ => rfl | ⟨1, _⟩ => rfl | ⟨2, _⟩ => rfl
  rw [e, stage_k, stage_max]
  rfl

/-- The sum of the exponentials over the heads, taken from zero. -/
theorem stage_sum (b : Fin 8) (n : Fin 4096) (d : Fin 64) :
    val_main_v20 (F := Ideal) x0 x1 x2 (ix3 b n d) = ∑ h : Fin 16, Attn.keyExp (Attn.projAt x0 x1 x2 b n) h d := by
  rw [val_main_v20_apply, val_main_cst_2_apply, Ideal.ofBits_def, Ideal.ofBits_zero_f32, zero_add]
  refine Finset.sum_congr rfl fun k _ => ?_
  have e : idx_main_v20 (ix3 b n d) k = ix4 b n k d :=
    funext fun a => by match a with | ⟨0, _⟩ => rfl | ⟨1, _⟩ => rfl | ⟨2, _⟩ => rfl | ⟨3, _⟩ => rfl
  rw [e, stage_exp]

/-- The softmax of the keys over the heads. -/
theorem stage_soft (b : Fin 8) (n : Fin 4096) (h : Fin 16) (d : Fin 64) :
    val_main_v23 (F := Ideal) x0 x1 x2 (ix4 b n h d) = Attn.keySoft (Attn.projAt x0 x1 x2 b n) h d := by
  rw [val_main_v23_apply, val_main_v22_apply, val_main_v21_apply]
  have e : idx_main_v21 (idx_main_v22 (ix4 b n h d)) = ix3 b n d :=
    funext fun a => by match a with | ⟨0, _⟩ => rfl | ⟨1, _⟩ => rfl | ⟨2, _⟩ => rfl
  rw [e, stage_exp, stage_sum]
  rfl

/-- The token's context matrix: normalised keys against values, summed over the heads. -/
theorem stage_ctx (b : Fin 8) (n : Fin 4096) (d e : Fin 64) :
    val_main_v24 (F := Ideal) x0 x1 x2 (ix4 b n d e) = Attn.ctx (Attn.projAt x0 x1 x2 b n) d e := by
  rw [val_main_v24_apply]
  unfold Attn.ctx
  refine Finset.sum_congr rfl fun k _ => ?_
  have el : lidx_main_v24 (ix4 b n d e) k = ix4 b n k d :=
    funext fun a => by match a with | ⟨0, _⟩ => rfl | ⟨1, _⟩ => rfl | ⟨2, _⟩ => rfl | ⟨3, _⟩ => rfl
  have er : ridx_main_v24 (ix4 b n d e) k = ix4 b n k e :=
    funext fun a => by match a with | ⟨0, _⟩ => rfl | ⟨1, _⟩ => rfl | ⟨2, _⟩ => rfl | ⟨3, _⟩ => rfl
  rw [el, er, stage_soft, stage_v]

/-- The scaled queries. -/
theorem stage_qs (b : Fin 8) (n : Fin 4096) (h : Fin 16) (d : Fin 64) :
    val_main_v12 (F := Ideal) x0 x1 x2 (ix4 b n h d)
      = Attn.projAt x0 x1 x2 b n (Attn.qCol h d) * Ideal.ofBits .f32 0x3E000000#32 := by
  rw [val_main_v12_apply, val_main_v11_apply, val_main_cst_apply, stage_q]
  rfl

end Stages

/-- The reference's head outputs (its second per-token product) are the specification's. -/
theorem ref_heads (x0 : FVec Ideal S8x4096x1024 .f32) (x1 : FVec Ideal S3072x1024 .f32) (x2 : FVec Ideal S3072 .f32) :
    val_main_v25 (F := Ideal) x0 x1 x2 = Attn.heads x0 x1 x2 := by
  funext j
  obtain ⟨b, n, h, e, rfl⟩ : ∃ (b : Fin 8) (n : Fin 4096) (h : Fin 16) (e : Fin 64), j = ix4 b n h e :=
    ⟨j 0, j 1, j 2, j 3, eq_ix4 j⟩
  rw [Attn.heads_apply, val_main_v25_apply]
  unfold Attn.headAt Attn.tok
  refine Finset.sum_congr rfl fun k _ => ?_
  have el : lidx_main_v25 (ix4 b n h e) k = ix4 b n h k :=
    funext fun a => by match a with | ⟨0, _⟩ => rfl | ⟨1, _⟩ => rfl | ⟨2, _⟩ => rfl | ⟨3, _⟩ => rfl
  have er : ridx_main_v25 (ix4 b n h e) k = ix4 b n k e :=
    funext fun a => by match a with | ⟨0, _⟩ => rfl | ⟨1, _⟩ => rfl | ⟨2, _⟩ => rfl | ⟨3, _⟩ => rfl
  rw [el, er, stage_qs, stage_ctx]

/-- The re-arrangement between the two projections is the specification's, applied to the same array. -/
theorem stage_mix (x0 : FVec Ideal S8x4096x1024 .f32) (x1 : FVec Ideal S3072x1024 .f32) (x2 : FVec Ideal S3072 .f32) :
    val_main_v27 (F := Ideal) x0 x1 x2 = Attn.mix (val_main_v25 (F := Ideal) x0 x1 x2) := rfl

/-- The reference's result is the specification's. -/
theorem ref_result (x0 : FVec Ideal S8x4096x1024 .f32) (x1 : FVec Ideal S3072x1024 .f32) (x2 : FVec Ideal S3072 .f32)
    (x3 : FVec Ideal S1024x1024 .f32) (x4 : FVec Ideal S1024 .f32) :
    val_main_v31 (F := Ideal) x0 x1 x2 x3 x4 = Attn.result x0 x1 x2 x3 x4 := by
  funext i
  obtain ⟨b, n, o, rfl⟩ : ∃ (b : Fin 8) (n : Fin 4096) (o : Fin 1024), i = ix3 b n o := ⟨i 0, i 1, i 2, eq_ix3 i⟩
  rw [Attn.result_apply, val_main_v31_apply, val_main_v28_apply, val_main_v30_apply, val_main_v29_apply,
    stage_mix, ref_heads]
  have el : ∀ k : Fin 1024, lidx_main_v28 (ix3 b n o) k = ix3 b n k := fun k =>
    funext fun a => by match a with | ⟨0, _⟩ => rfl | ⟨1, _⟩ => rfl | ⟨2, _⟩ => rfl
  have er : ∀ k : Fin 1024, ridx_main_v28 (ix3 b n o) k = ix2 o k := fun k =>
    funext fun a => by match a with | ⟨0, _⟩ => rfl | ⟨1, _⟩ => rfl
  have eb : idx_main_v29 (idx_main_v30 (ix3 b n o)) = ix1 o :=
    funext fun a => by match a with | ⟨0, _⟩ => rfl
  simp only [el, er, eb]
  rfl

end Cert.ReferenceIdeal.Hand

end
-- ==== Proof.lean ====
/-
  The certificate of the two-kernel attention program against its reference.

  Both programs compute, at the ideal instance, one function of the five argument arrays (`Attn.result`, Proof/Spec.lean):
  a projection of every token to queries, keys and values, a softmax of the keys across the 16 heads, the token's context
  matrix and output, a re-arrangement that puts heads in front of positions, and a last projection. The kernel program cuts
  the tokens into blocks of 256 rows for the first five steps and into blocks of 1024 rows for the last; since every step is
  per token (or per row), the blocks' results are the rows of the whole-array function, and the sums are the same sums.

  The three frames are the generated ones (the reference's is its generated run with the result dropped); no operation was
  rewritten by the idealization, so `preserves` asks nothing; `algebraic` states both runs' results at `Attn.result` of
  arguments that agree: the kernel's by the run with its result named (Proof/RunNamed.lean) read through the host operations
  and the two regions (Proof/Glue.lean), the reference's by its generated run read one operation at a time
  (Proof/RefStages.lean).
-/
import proofs.«169469_j10608569221191_1_alg».proof.Defs
import proofs.«169469_j10608569221191_1_alg».proof.Proof.Gen.Kernel
import proofs.«169469_j10608569221191_1_alg».proof.Proof.Gen.Kernel.Skeleton
import proofs.«169469_j10608569221191_1_alg».proof.Proof.Gen.Kernel.Launch
import proofs.«169469_j10608569221191_1_alg».proof.Proof.Gen.Kernel.Points
import proofs.«169469_j10608569221191_1_alg».proof.Proof.Gen.Kernel.Frame
import proofs.«169469_j10608569221191_1_alg».proof.Proof.Gen.KernelIdeal
import proofs.«169469_j10608569221191_1_alg».proof.Proof.Gen.KernelIdeal.Skeleton
import proofs.«169469_j10608569221191_1_alg».proof.Proof.Gen.KernelIdeal.Launch
import proofs.«169469_j10608569221191_1_alg».proof.Proof.Gen.KernelIdeal.Points
import proofs.«169469_j10608569221191_1_alg».proof.Proof.Gen.KernelIdeal.Frame
import proofs.«169469_j10608569221191_1_alg».proof.Proof.Gen.ReferenceIdeal
import proofs.«169469_j10608569221191_1_alg».proof.Proof.Gen.ReferenceIdeal.Run
import proofs.«169469_j10608569221191_1_alg».proof.Proof.Gen.ReferenceIdeal.Read
import proofs.«169469_j10608569221191_1_alg».proof.Proof.Gen.Pre_finite_inputs
import proofs.«169469_j10608569221191_1_alg».proof.Proof.RunNamed
import proofs.«169469_j10608569221191_1_alg».proof.Proof.Glue
import proofs.«169469_j10608569221191_1_alg».proof.Proof.RefStages
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result at `Attn.result` of the argument arrays, and the arrays agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Attn.result (Cert.KernelIdeal.Hand.argX m c) (Cert.KernelIdeal.Hand.argWq m c)
      (Cert.KernelIdeal.Hand.argBq m c) (Cert.KernelIdeal.Hand.argWp m c) (Cert.KernelIdeal.Hand.argBp m c), ?_, ?_⟩
  · exact (θ_run Cert.KernelIdeal.defs _ _).mono
      (fun _ h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.Hand.ref_result,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
